-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x128 .f32) (main_arg3 : FVec F S128 .f32) (main_arg4 : FVec F S128x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x500 : Shape := ⟨2, ![5000, 500]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S20000x40 : Shape := ⟨2, ![20000, 40]⟩
abbrev S20000 : Shape := ⟨1, ![20000]⟩
abbrev S20000x1 : Shape := ⟨2, ![20000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S20000x40, .f32⟩
  | .local _ .vmem, ⟨16, _⟩ => ⟨S20000x40, .f32⟩
  | .local _ .vmem, ⟨17, _⟩ => ⟨S1x40, .f32⟩
  | .local _ .vmem, ⟨18, _⟩ => ⟨S20000x40, .f32⟩
  | .local _ .vmem, ⟨19, _⟩ => ⟨S20000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  inb_S20000x40_S20000x40_0_0 : ∀ a, (![0, 0] : Fin 2 → Nat) a + S20000x40.size a ≤ S20000x40.size a
  h_S20000x40 : 0 < S20000x40.numel
  shapeCasts_S20000x40_S20000x40 : S20000x40.ShapeCasts S20000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  reduces_S20000x40_S20000 : S20000x40.Reduces [1] S20000
  shapeCasts_S20000_S20000x1 : S20000.ShapeCasts S20000x1
  broadcasts_S20000x1_S20000x40 : S20000x1.Broadcasts S20000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x500_S500x128_S5000x128_1_0_0_1_n_n_wf : DotDims.WF S5000x500 S500x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x40.size a ≤ S100000x40.size a
  hwx3_0 : ∀ i : grid3.Coords, EltTy.bits .f32 = 32 ∨ (Rect.block (s := S100000x40) S20000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x40.size a ≤ S100000x40.size a
  hwx3_2 : ∀ i : grid3.Coords, EltTy.bits .f32 = 32 ∨ (Rect.block (s := S100000x40) S20000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S20000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S20000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x40, .f32⟩
  | .hbm, ⟨102, _⟩ => ⟨S100000x40, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_call2_cst_0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_cst_1 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x128_S100000x128_1_0_0_1_n_n_wf : DotDims.WF S100000x500 S500x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibTypedRef.lean ====
/-
  Typed references of module-local functions, read back.

  An operation of a function the program calls writes its result through a typed reference: the buffer
  together with an equation saying that the buffer's type is the value's. Writing transports contents of the
  value's type to the buffer's type along that equation, reading transports them back; so what one operation
  wrote and the next reads back through the same typed reference is the value itself. Stated once for an
  arbitrary typed reference (the equation is substituted away), this cancels every write-then-read pair inside
  a chain of such operations by rewriting, whatever the values are, leaving one transport at each end of the
  chain — where, for a literal buffer, it is the identity on any contents by computation.
-/
import Idealize.ShloMosaic.Lib.StableHlo

noncomputable section

namespace Idealize.ShloMosaic.TypedRef

open Idealize.ShloMosaic Idealize.ShloMosaic.StableHlo

/-- Contents written through a typed reference and read back through it are the contents. -/
theorem ofBuf_toBuf {sig : RefSig} {Val : EltTy → Type} {T : BufTy} (x : TRef sig T) (z : T.Contents Val) :
    x.ofBuf (x.toBuf z) = z := by
  obtain ⟨r, h, h2, h3⟩ := x
  subst h
  rfl

/-- Contents read through a typed reference and written back through it are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.TypedRef

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«156352_j73478300500078_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.ProductOne.lean ====
/-
  The first layer's product `x · W1`, read off the first pallas call's blocks.

  The call walks the 100000 rows in 20 blocks of 5000. At a block it multiplies the block's rows by the whole
  500×128 weight matrix, into a zero accumulator, and writes the 5000×128 product back as the block's rows of the
  result. A change of float format is the identity on the extended reals, so entry (p, q) of a block's product is the sum
  over k of (row p of the block, entry k) times (weight (k, q)); row p of block t is row 5000·t + p of the input. Hence
  the blocks are the restrictions of one function of the whole arrays, the plain product of the 100000×500 input by
  the weights, and since the 20 blocks cover every row the result array ends holding exactly that product.
-/
import proofs.«156352_j73478300500078_1_alg».proof.Proof.Gen.KernelIdeal.Frame
import proofs.«156352_j73478300500078_1_alg».proof.Proof.LibPlainDotAny
import Idealize.ShloMosaic.Lib.Pipeline.Value
import Idealize.ShloMosaic.Lib.ValueIdx

noncomputable section

open scoped BigOperators

namespace Cert.KernelIdeal.ProductOne

open Idealize.ShloMosaic Idealize.ShloMosaic.TcCoe Idealize.SL.Sem Idealize.ShloMosaic.ValueIdx
open Idealize.ShloMosaic.Pipeline (Dat Cfg Window)
open Cert.KernelIdeal Cert.KernelIdeal.Gen

-- `V`: the contents of the TensorCore's buffers when the call is entered.
variable (V : (c : Dev nD) → (b : Ref sig .tc) → Buf (Elt Ideal) ((c : Thread nD τ).loc b))

theorem origin : (![0, 0] : Fin 2 → Nat) = fun _ => 0 := funext fun a => by fin_cases a <;> rfl

/-- The plain product of a 100000×500 array by a 500×128 matrix, as the host spells it. -/
def product (x : FVec Ideal ⟨2, ![100000, 500]⟩ .f32) (w : FVec Ideal ⟨2, ![500, 128]⟩ .f32) :
    FVec Ideal ⟨2, ![100000, 128]⟩ .f32 :=
  Host.dotGeneral (DotDims.plain 100000 500 128) none x w

/-- Entry (r, q) of the product is the sum over k of x (r, k) · w (k, q). -/
theorem product_apply (x : FVec Ideal ⟨2, ![100000, 500]⟩ .f32) (w : FVec Ideal ⟨2, ![500, 128]⟩ .f32)
    (r : Fin 100000) (q : Fin 128) :
    product x w (ix2 r q) = ∑ k : Fin 500, x (ix2 r k) * w (ix2 k q) := by
  unfold product
  simp only [Host.dotGeneral]
  exact PlainDot.dotGeneral_apply_any 100000 500 128 none _ x w (ix2 r q)

/-- Row p of block t is row 5000·t + p of the array. -/
def rowOf (t : Fin cfg0.N) (p : Fin 5000) : Fin 100000 :=
  ⟨t.val * 5000 + p.val, by have ht : t.val < 20 := t.isLt; have hp := p.isLt; omega⟩

/-- The printed index maps over the grid: the input's and the result's block t starts at row block t, column block 0;
    the weights' one block is the whole matrix. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where entry (p, k) of the input's block t sits in the input array. -/
theorem input_at (t : Fin cfg0.N) (p : Fin 5000) (k : Fin 500) :
    ((cfg0.win 0).blk t).view.emb (ix2 p k) = ix2 (rowOf t p) k := by
  obtain ⟨e0, e1, -⟩ := index_maps t
  funext a; apply Fin.ext
  match a with
  | ⟨0, _⟩ => show win0_0.index t (0 : Fin 2) * 5000 + 1 * p.val = t.val * 5000 + p.val; rw [e0]; omega
  | ⟨1, _⟩ => show win0_0.index t (1 : Fin 2) * 500 + 1 * k.val = k.val; rw [e1]; omega

/-- The weights' block is the whole matrix. -/
theorem weight_at (t : Fin cfg0.N) (k : Fin 500) (q : Fin 128) :
    ((cfg0.win 1).blk t).view.emb (ix2 k q) = ix2 k q := by
  obtain ⟨-, -, e0, e1, -⟩ := index_maps t
  funext a; apply Fin.ext
  match a with
  | ⟨0, _⟩ => show win0_1.index t (0 : Fin 2) * 500 + 1 * k.val = k.val; rw [e0]; omega
  | ⟨1, _⟩ => show win0_1.index t (1 : Fin 2) * 128 + 1 * q.val = q.val; rw [e1]; omega

/-- Where entry (p, q) of the result's block t sits in the result array. -/
theorem result_at (t : Fin cfg0.N) (p : Fin 5000) (q : Fin 128) :
    ((cfg0.win 2).blk t).view.emb (ix2 p q) = ix2 (rowOf t p) q := by
  obtain ⟨-, -, -, -, e0, e1⟩ := index_maps t
  funext a; apply Fin.ext
  match a with
  | ⟨0, _⟩ => show win0_2.index t (0 : Fin 2) * 5000 + 1 * p.val = t.val * 5000 + p.val; rw [e0]; omega
  | ⟨1, _⟩ => show win0_2.index t (1 : Fin 2) * 128 + 1 * q.val = q.val; rw [e1]; omega

/-- The body's value at (p, q): the sum over k of (block (p, k)) · (weights (k, q)); the two narrowings to bf16 are the
    identity on the extended reals. -/
theorem body_apply (x0 : Vec Ideal S5000x500 .f32) (x1 : Vec Ideal S500x128 .f32) (p : Fin 5000) (q : Fin 128) :
    k0_pay1 (F := Ideal) x0 x1 (ix2 p q) = ∑ k : Fin 500, x0 (ix2 p k) * x1 (ix2 k q) := by
  unfold k0_pay1
  exact PlainDot.matmul_zero_apply_any 5000 500 128 none _ _ (ix2 p q)

/-- What grid point t writes back is block t of the product of the arrays as the call finds them. -/
theorem written_back (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S5000x500) origin, View.ld_unit_zero (S := S500x128) origin]
  funext j
  obtain ⟨p, q, rfl⟩ : ∃ (p : Fin 5000) (q : Fin 128), j = ix2 p q := ⟨j 0, j 1, eq_ix2 j⟩
  refine (body_apply (iblk0 V c 0 t) (iblk0 V c 1 t) p q).trans ?_
  show _ = product (V c main_arg0) (V c main_arg2) (((cfg0.win 2).blk t).view.emb (ix2 p q))
  rw [result_at, product_apply]
  refine Finset.sum_congr rfl fun k _ => ?_
  have ha : iblk0 V c 0 t (ix2 p k) = V c main_arg0 (ix2 (rowOf t p) k) :=
    congrArg (V c main_arg0) (input_at t p k)
  have hb : iblk0 V c 1 t (ix2 k q) = V c main_arg2 (ix2 k q) :=
    congrArg (V c main_arg2) (weight_at t k q)
  rw [ha, hb]

/-- An index of the result array is in block t exactly when its row is in the block's 5000 rows. -/
theorem in_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the result array lies in the block of the grid point its row falls in. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, e0, e1⟩ := index_maps t
  have ht : t.val = (i 0).val / 5000 := rfl
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- After the call the result array holds the product of the arrays the call found. -/
theorem result (c : Dev nD) :
    (dat0 (F := Ideal) V c).arrAt 2 cfg0.N = product (V c main_arg0) (V c main_arg2) :=
  (dat0 (F := Ideal) V c).arrAt_eq_of_cover 2 (product (V c main_arg0) (V c main_arg2))
    (fun t _ => written_back V c t) covered

end Cert.KernelIdeal.ProductOne

end
-- ==== Proof.ProductTwo.lean ====
/-
  The second layer's product `h · W2`, read off the third pallas call's blocks.

  The call walks the 100000 rows in 20 blocks of 5000. At a block it multiplies the block's rows by the whole
  128×40 weight matrix, into a zero accumulator, and writes the 5000×40 product back as the block's rows of the
  result. A change of float format is the identity on the extended reals, so entry (p, q) of a block's product is the sum
  over k of (row p of the block, entry k) times (weight (k, q)); row p of block t is row 5000·t + p of the input. Hence
  the blocks are the restrictions of one function of the whole arrays, the plain product of the 100000×128 input by
  the weights, and since the 20 blocks cover every row the result array ends holding exactly that product.
-/
import proofs.«156352_j73478300500078_1_alg».proof.Proof.Gen.KernelIdeal.Frame
import proofs.«156352_j73478300500078_1_alg».proof.Proof.LibPlainDotAny
import Idealize.ShloMosaic.Lib.Pipeline.Value
import Idealize.ShloMosaic.Lib.ValueIdx

noncomputable section

open scoped BigOperators

namespace Cert.KernelIdeal.ProductTwo

open Idealize.ShloMosaic Idealize.ShloMosaic.TcCoe Idealize.SL.Sem Idealize.ShloMosaic.ValueIdx
open Idealize.ShloMosaic.Pipeline (Dat Cfg Window)
open Cert.KernelIdeal Cert.KernelIdeal.Gen

-- `V`: the contents of the TensorCore's buffers when the call is entered.
variable (V : (c : Dev nD) → (b : Ref sig .tc) → Buf (Elt Ideal) ((c : Thread nD τ).loc b))

theorem origin : (![0, 0] : Fin 2 → Nat) = fun _ => 0 := funext fun a => by fin_cases a <;> rfl

/-- The plain product of a 100000×128 array by a 128×40 matrix, as the host spells it. -/
def product (x : FVec Ideal ⟨2, ![100000, 128]⟩ .f32) (w : FVec Ideal ⟨2, ![128, 40]⟩ .f32) :
    FVec Ideal ⟨2, ![100000, 40]⟩ .f32 :=
  Host.dotGeneral (DotDims.plain 100000 128 40) none x w

/-- Entry (r, q) of the product is the sum over k of x (r, k) · w (k, q). -/
theorem product_apply (x : FVec Ideal ⟨2, ![100000, 128]⟩ .f32) (w : FVec Ideal ⟨2, ![128, 40]⟩ .f32)
    (r : Fin 100000) (q : Fin 40) :
    product x w (ix2 r q) = ∑ k : Fin 128, x (ix2 r k) * w (ix2 k q) := by
  unfold product
  simp only [Host.dotGeneral]
  exact PlainDot.dotGeneral_apply_any 100000 128 40 none _ x w (ix2 r q)

/-- Row p of block t is row 5000·t + p of the array. -/
def rowOf (t : Fin cfg2.N) (p : Fin 5000) : Fin 100000 :=
  ⟨t.val * 5000 + p.val, by have ht : t.val < 20 := t.isLt; have hp := p.isLt; omega⟩

/-- The printed index maps over the grid: the input's and the result's block t starts at row block t, column block 0;
    the weights' one block is the whole matrix. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Where entry (p, k) of the input's block t sits in the input array. -/
theorem input_at (t : Fin cfg2.N) (p : Fin 5000) (k : Fin 128) :
    ((cfg2.win 0).blk t).view.emb (ix2 p k) = ix2 (rowOf t p) k := by
  obtain ⟨e0, e1, -⟩ := index_maps t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weights' block is the whole matrix. -/
theorem weight_at (t : Fin cfg2.N) (k : Fin 128) (q : Fin 40) :
    ((cfg2.win 1).blk t).view.emb (ix2 k q) = ix2 k q := by
  obtain ⟨-, -, e0, e1, -⟩ := index_maps t
  funext a; apply Fin.ext
  match a with
  | ⟨0, _⟩ => show win2_1.index t (0 : Fin 2) * 128 + 1 * k.val = k.val; rw [e0]; omega
  | ⟨1, _⟩ => show win2_1.index t (1 : Fin 2) * 40 + 1 * q.val = q.val; rw [e1]; omega

/-- Where entry (p, q) of the result's block t sits in the result array. -/
theorem result_at (t : Fin cfg2.N) (p : Fin 5000) (q : Fin 40) :
    ((cfg2.win 2).blk t).view.emb (ix2 p q) = ix2 (rowOf t p) q := by
  obtain ⟨-, -, -, -, e0, e1⟩ := index_maps t
  funext a; apply Fin.ext
  match a with
  | ⟨0, _⟩ => show win2_2.index t (0 : Fin 2) * 5000 + 1 * p.val = t.val * 5000 + p.val; rw [e0]; omega
  | ⟨1, _⟩ => show win2_2.index t (1 : Fin 2) * 40 + 1 * q.val = q.val; rw [e1]; omega

/-- The body's value at (p, q): the sum over k of (block (p, k)) · (weights (k, q)); the two narrowings to bf16 are the
    identity on the extended reals. -/
theorem body_apply (x0 : Vec Ideal S5000x128 .f32) (x1 : Vec Ideal S128x40 .f32) (p : Fin 5000) (q : Fin 40) :
    k2_pay1 (F := Ideal) x0 x1 (ix2 p q) = ∑ k : Fin 128, x0 (ix2 p k) * x1 (ix2 k q) := by
  unfold k2_pay1
  rw [shapeCast_self]
  exact PlainDot.matmul_zero_apply_any 5000 128 40 none _ _ (ix2 p q)

/-- What grid point t writes back is block t of the product of the arrays as the call finds them. -/
theorem written_back (c : Dev nD) (t : Fin cfg2.N) :
    (dat2 (F := Ideal) V c).flushed 2 t
      = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x40) origin]
  funext j
  obtain ⟨p, q, rfl⟩ : ∃ (p : Fin 5000) (q : Fin 40), j = ix2 p q := ⟨j 0, j 1, eq_ix2 j⟩
  refine (body_apply (iblk2 V c 0 t) (iblk2 V c 1 t) p q).trans ?_
  show _ = product (V c main_v45) (V c main_arg4) (((cfg2.win 2).blk t).view.emb (ix2 p q))
  rw [result_at, product_apply]
  refine Finset.sum_congr rfl fun k _ => ?_
  have ha : iblk2 V c 0 t (ix2 p k) = V c main_v45 (ix2 (rowOf t p) k) :=
    congrArg (V c main_v45) (input_at t p k)
  have hb : iblk2 V c 1 t (ix2 k q) = V c main_arg4 (ix2 k q) :=
    congrArg (V c main_arg4) (weight_at t k q)
  rw [ha, hb]

/-- An index of the result array is in block t exactly when its row is in the block's 5000 rows. -/
theorem in_block (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- Every index of the result array lies in the block of the grid point its row falls in. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 5000, by show (i 0).val / 5000 < 20; omega⟩
  obtain ⟨-, -, -, -, e0, e1⟩ := index_maps t
  have ht : t.val = (i 0).val / 5000 := rfl
  refine ⟨t, flush2_2 t, ?_⟩
  rw [in_block]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 40 ≤ (i 1).val ∧ (i 1).val < win2_2.index t (1 : Fin 2) * 40 + 40; rw [e1]; omega

/-- After the call the result array holds the product of the arrays the call found. -/
theorem result (c : Dev nD) :
    (dat2 (F := Ideal) V c).arrAt 2 cfg2.N = product (V c main_v45) (V c main_arg4) :=
  (dat2 (F := Ideal) V c).arrAt_eq_of_cover 2 (product (V c main_v45) (V c main_arg4))
    (fun t _ => written_back V c t) covered

end Cert.KernelIdeal.ProductTwo

end
-- ==== Proof.BiasFloor.lean ====
/-
  The first layer's bias and rectifier, read off the second pallas call's blocks.

  The call walks the 100000 rows in 20 blocks of 5000. At a block it adds the one-row bias to every row of the block and
  raises every entry to at least zero. Entry (p, q) of a block's result is max (block (p, q) + bias (0, q), 0), and row p of
  block t is row 5000·t + p of the input, so the blocks are the restrictions of one entrywise function of the whole
  arrays; the 20 blocks cover every row, so the result array ends holding that function of the input and the bias row.
-/
import proofs.«156352_j73478300500078_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BiasFloor

open Idealize.ShloMosaic Idealize.ShloMosaic.TcCoe Idealize.SL.Sem Idealize.ShloMosaic.ValueIdx
open Idealize.ShloMosaic.Pipeline (Dat Cfg Window)
open Cert.KernelIdeal Cert.KernelIdeal.Gen

-- `V`: the contents of the TensorCore's buffers when the call is entered.
variable (V : (c : Dev nD) → (b : Ref sig .tc) → Buf (Elt Ideal) ((c : Thread nD τ).loc b))

theorem origin : (![0, 0] : Fin 2 → Nat) = fun _ => 0 := funext fun a => by fin_cases a <;> rfl

/-- Every entry plus its column's bias, raised to at least the zero the kernel splats. -/
def layer (X : FVec Ideal ⟨2, ![100000, 128]⟩ .f32) (B : FVec Ideal ⟨2, ![1, 128]⟩ .f32) : FVec Ideal ⟨2, ![100000, 128]⟩ .f32 :=
  fun i => max (X i + B (ix2 (0 : Fin 1) (i 1))) (Ideal.ofBits .f32 0x00000000#32)

theorem layer_apply (X : FVec Ideal ⟨2, ![100000, 128]⟩ .f32) (B : FVec Ideal ⟨2, ![1, 128]⟩ .f32) (r : Fin 100000) (q : Fin 128) :
    layer X B (ix2 r q) = max (X (ix2 r q) + B (ix2 (0 : Fin 1) q)) (Ideal.ofBits .f32 0x00000000#32) := rfl

/-- Row p of block t is row 5000·t + p of the array. -/
def rowOf (t : Fin cfg1.N) (p : Fin 5000) : Fin 100000 :=
  ⟨t.val * 5000 + p.val, by have ht : t.val < 20 := t.isLt; have hp := p.isLt; omega⟩

/-- The printed index maps over the grid: the input's and the result's block t starts at row block t, column block 0;
    the bias row's one block is the whole row. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Where entry (p, q) of the input's block t sits in the input array. -/
theorem input_at (t : Fin cfg1.N) (p : Fin 5000) (q : Fin 128) :
    ((cfg1.win 0).blk t).view.emb (ix2 p q) = ix2 (rowOf t p) q := by
  obtain ⟨e0, e1, -⟩ := index_maps t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The bias row's block is the whole row. -/
theorem bias_at (t : Fin cfg1.N) (q : Fin 128) :
    ((cfg1.win 1).blk t).view.emb (ix2 (0 : Fin 1) q) = ix2 (0 : Fin 1) q := by
  obtain ⟨-, -, e0, e1, -⟩ := index_maps t
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- Where entry (p, q) of the result's block t sits in the result array. -/
theorem result_at (t : Fin cfg1.N) (p : Fin 5000) (q : Fin 128) :
    ((cfg1.win 2).blk t).view.emb (ix2 p q) = ix2 (rowOf t p) q := by
  obtain ⟨-, -, -, -, e0, e1⟩ := index_maps t
  funext a; apply Fin.ext
  match a with
  | ⟨0, _⟩ => show win1_2.index t (0 : Fin 2) * 5000 + 1 * p.val = t.val * 5000 + p.val; rw [e0]; omega
  | ⟨1, _⟩ => show win1_2.index t (1 : Fin 2) * 128 + 1 * q.val = q.val; rw [e1]; omega

/-- The body's value at (p, q): the block's entry plus the bias of column q, raised to at least zero. -/
theorem body_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  show max (shapeCast S5000x128 x0 _ (ix2 p q) + broadcastTo S5000x128 (shapeCast S1x128 x1 _) _ (ix2 p q)) _ = _
  rw [shapeCast_self, shapeCast_self, broadcastTo_1b_ab_apply]
  rfl

/-- What grid point t writes back is block t of the layer applied to the arrays as the call finds them. -/
theorem written_back (c : Dev nD) (t : Fin cfg1.N) :
    (dat1 (F := Ideal) V c).flushed 2 t
      = ((cfg1.win 2).blk t).view.read (Elt Ideal) (layer (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  refine (body_apply (iblk1 V c 0 t) (iblk1 V c 1 t) p q).trans ?_
  show _ = layer (V c main_v43) (V c main_v44) (((cfg1.win 2).blk t).view.emb (ix2 p q))
  rw [result_at, layer_apply]
  have ha : ∀ k : Fin 128, iblk1 V c 0 t (ix2 p k) = V c main_v43 (ix2 (rowOf t p) k) :=
    fun k => congrArg (V c main_v43) (input_at t p k)
  have hb : ∀ k : Fin 128, iblk1 V c 1 t (ix2 (0 : Fin 1) k) = V c main_v44 (ix2 (0 : Fin 1) k) :=
    fun k => congrArg (V c main_v44) (bias_at t k)
  rw [ha, hb]

/-- An index of the result array is in block t exactly when its row is in the block's 5000 rows. -/
theorem in_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every index of the result array lies in the block of the grid point its row falls in. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, e0, e1⟩ := index_maps t
  have ht : t.val = (i 0).val / 5000 := rfl
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- After the call the result array holds the layer applied to the arrays the call found. -/
theorem result (c : Dev nD) :
    (dat1 (F := Ideal) V c).arrAt 2 cfg1.N = layer (V c main_v43) (V c main_v44) :=
  (dat1 (F := Ideal) V c).arrAt_eq_of_cover 2 (layer (V c main_v43) (V c main_v44))
    (fun t _ => written_back V c t) covered

end Cert.KernelIdeal.BiasFloor

end
-- ==== Proof.LibRowMax.lean ====
/-
  The greatest entry of each row of a small array, read at explicit coordinates, at the ideal values.

  A rank-2 array `[B, w]` reduced by a maximum over its last axis gives, at `r`, the maximum over `l < w` of the
  entries `(r, l)`, folded from a starting value: the accumulator's value for the kernel's
  `vector.multi_reduction <maximumf>`, the initial value's one element for the host's `stablehlo.reduce` with a
  `maximum` body. Both are the same fold of `max` over `Fin w`, so the two meet whenever their starting values do;
  and such a fold is never below its starting value, so taking the maximum with the starting value once more changes
  nothing.

  The result index is any index `j` whose coordinate is the given one (a hypothesis on `.val`), so that a caller
  may pass whatever spelling of the index its goal carries.
-/
import Idealize.ShloMosaic.PureOps.Ideal.Laws
import Idealize.ShloMosaic.Lib.ValueIdx

noncomputable section

namespace Idealize.ShloMosaic.RowMax

open Idealize.ShloMosaic Idealize.ShloMosaic.ValueIdx

variable {φ : FTy}

/-- The maximum of a row's entries, folded from `b`. -/
def rowMax {w : Nat} (b : EReal) (z : Fin w → EReal) : EReal :=
  (Finset.univ : Finset (Fin w)).fold max b z

/-- The fold is never below its starting value. -/
theorem le_rowMax {w : Nat} (b : EReal) (z : Fin w → EReal) : b ≤ rowMax b z :=
  (Finset.le_fold_max b).mpr (Or.inl le_rfl)

/-- Taking the maximum with the starting value once more changes nothing. -/
theorem max_rowMax {w : Nat} (b : EReal) (z : Fin w → EReal) : max b (rowMax b z) = rowMax b z :=
  max_eq_right (le_rowMax b z)

/-- The kernel's maximum over the LAST axis of a `[B, w]` array, at an index with coordinate `r`. -/
theorem last_max {B w : Nat} (P : FVec Ideal ⟨2, ![B, w]⟩ φ) (acc : BitVec φ.bits)
    (h : Shape.Reduces ⟨2, ![B, w]⟩ [1] ⟨1, ![B]⟩) (hφ : FKind.Formats φ) (hacc : acc = FKind.maximumf.neutral φ hφ)
    (j : (⟨1, ![B]⟩ : Shape).Idx) (r : Fin B) (hr : (j 0).val = r.val) :
    multiReduction .maximumf [1] ⟨1, ![B]⟩ P acc h hφ hacc j = rowMax (Ideal.ofBits φ acc) (fun l => P (ix2 r l)) := by
  refine (Ideal.multiReduction_maximumf_single P acc h hφ hacc j).trans ?_
  refine congrArg (fun f => Finset.fold max (Ideal.ofBits φ acc) f (Finset.univ : Finset (Fin w))) ?_
  refine funext fun l => congrArg P (funext fun a => Fin.ext ?_)
  match a with
  | ⟨0, _⟩ => exact hr
  | ⟨1, _⟩ => rfl

/-- The host's maximum over the LAST axis of a `[B, w]` array, at an index with coordinate `r`, from the initial
    value's one element. -/
theorem host_last_max {B w : Nat} {u : Shape} (x : (⟨2, ![B, w]⟩ : Shape).Idx → Ideal φ) (init : u.Idx → Ideal φ)
    (h' : Shape.ReducesTo ⟨2, ![B, w]⟩ [1] ⟨1, ![B]⟩) (h : Shape.Reduces ⟨2, ![B, w]⟩ [1] ⟨1, ![B]⟩) (hu : 0 < u.numel)
    (j : (⟨1, ![B]⟩ : Shape).Idx) (r : Fin B) (hr : (j 0).val = r.val) :
    Host.reduce FloatOps.maximumf x init h' hu j = rowMax (init (Shape.Idx.first hu)) (fun l => x (ix2 r l)) := by
  refine (Host.reduce_eq_fold_single FloatOps.maximumf x init h' h hu j).trans ?_
  refine congrArg (fun f => Finset.fold max (init (Shape.Idx.first hu)) f (Finset.univ : Finset (Fin w))) ?_
  refine funext fun l => congrArg x (funext fun a => Fin.ext ?_)
  match a with
  | ⟨0, _⟩ => exact hr
  | ⟨1, _⟩ => rfl

end Idealize.ShloMosaic.RowMax

end
-- ==== Proof.LibAxisSums.lean ====
/-
  Sums along axes of small arrays, read at explicit coordinates, at the ideal values.

  A rank-3 array `[B, n, w]` summed over its middle axis gives, at `(r, q)`, the sum over `i < n` of the entries
  `(r, i, q)`; a rank-2 array `[B, w]` summed over its last axis gives, at `r`, the sum over `l < w` of the entries
  `(r, l)`. Both are stated for the kernel's `vector.multi_reduction <add>` (whose neutral accumulator the reading
  drops) and for the host's `stablehlo.reduce` with `add` (which adds its initial value in front). The host may also
  sum a rank-3 array over its last TWO axes at once: at `r` that is the initial value plus the double sum over
  `i < n` and `l < w` of the entries `(r, i, l)`; the indices that drop to `r` are exactly the triples `(r, i, l)`,
  which the pairs `(i, l)` enumerate once each.

  The result index is any index `j` whose coordinates are the given ones (hypotheses on `.val`), so that a caller
  may pass whatever spelling of the index its goal carries.
-/
import Idealize.ShloMosaic.PureOps.Ideal.Laws
import Idealize.ShloMosaic.Lib.ValueIdx
import Idealize.ShloMosaic.Lib.IdealHost

noncomputable section

open scoped BigOperators

namespace Idealize.ShloMosaic.AxisSums

open Idealize.ShloMosaic Idealize.ShloMosaic.ValueIdx

variable {φ : FTy}

/-- The kernel's sum over the MIDDLE axis of a `[B, n, w]` array, at an index with coordinates `(r, q)`. -/
theorem middle_sum {B n w : Nat} (P : FVec Ideal ⟨3, ![B, n, w]⟩ φ) (acc : BitVec φ.bits)
    (h : Shape.Reduces ⟨3, ![B, n, w]⟩ [1] ⟨2, ![B, w]⟩) (hφ : FKind.Formats φ) (hacc : acc = FKind.add.neutral φ hφ)
    (j : (⟨2, ![B, w]⟩ : Shape).Idx) (r : Fin B) (q : Fin w) (hr : (j 0).val = r.val) (hq : (j 1).val = q.val) :
    multiReduction .add [1] ⟨2, ![B, w]⟩ P acc h hφ hacc j = ∑ i : Fin n, P (ix3 r i q) := by
  refine (Ideal.multiReduction_add_single P acc h hφ hacc j).trans ?_
  refine Finset.sum_congr rfl fun i _ => congrArg P (funext fun a => Fin.ext ?_)
  match a with
  | ⟨0, _⟩ => exact hr
  | ⟨1, _⟩ => rfl
  | ⟨2, _⟩ => exact hq

/-- The kernel's sum over the LAST axis of a `[B, w]` array, at an index with coordinate `r`. -/
theorem last_sum {B w : Nat} (P : FVec Ideal ⟨2, ![B, w]⟩ φ) (acc : BitVec φ.bits)
    (h : Shape.Reduces ⟨2, ![B, w]⟩ [1] ⟨1, ![B]⟩) (hφ : FKind.Formats φ) (hacc : acc = FKind.add.neutral φ hφ)
    (j : (⟨1, ![B]⟩ : Shape).Idx) (r : Fin B) (hr : (j 0).val = r.val) :
    multiReduction .add [1] ⟨1, ![B]⟩ P acc h hφ hacc j = ∑ l : Fin w, P (ix2 r l) := by
  refine (Ideal.multiReduction_add_single P acc h hφ hacc j).trans ?_
  refine Finset.sum_congr rfl fun l _ => congrArg P (funext fun a => Fin.ext ?_)
  match a with
  | ⟨0, _⟩ => exact hr
  | ⟨1, _⟩ => rfl

/-- The host's sum over the MIDDLE axis of a `[B, n, w]` array, at an index with coordinates `(r, q)`. -/
theorem host_middle_sum {B n w : Nat} (x : (⟨3, ![B, n, w]⟩ : Shape).Idx → EReal) (init : EReal)
    (h' : Shape.ReducesTo ⟨3, ![B, n, w]⟩ [1] ⟨2, ![B, w]⟩) (h : Shape.Reduces ⟨3, ![B, n, w]⟩ [1] ⟨2, ![B, w]⟩)
    (j : (⟨2, ![B, w]⟩ : Shape).Idx) (r : Fin B) (q : Fin w) (hr : (j 0).val = r.val) (hq : (j 1).val = q.val) :
    Ideal.hostReduceAdd h' x init j = init + ∑ i : Fin n, x (ix3 r i q) := by
  refine (Ideal.hostReduceAdd_single h' h x init j).trans (congrArg (init + ·) ?_)
  refine Finset.sum_congr rfl fun i _ => congrArg x (funext fun a => Fin.ext ?_)
  match a with
  | ⟨0, _⟩ => exact hr
  | ⟨1, _⟩ => rfl
  | ⟨2, _⟩ => exact hq

/-- The host's sum over the LAST axis of a `[B, w]` array, at an index with coordinate `r`. -/
theorem host_last_sum {B w : Nat} (x : (⟨2, ![B, w]⟩ : Shape).Idx → EReal) (init : EReal)
    (h' : Shape.ReducesTo ⟨2, ![B, w]⟩ [1] ⟨1, ![B]⟩) (h : Shape.Reduces ⟨2, ![B, w]⟩ [1] ⟨1, ![B]⟩)
    (j : (⟨1, ![B]⟩ : Shape).Idx) (r : Fin B) (hr : (j 0).val = r.val) :
    Ideal.hostReduceAdd h' x init j = init + ∑ l : Fin w, x (ix2 r l) := by
  refine (Ideal.hostReduceAdd_single h' h x init j).trans (congrArg (init + ·) ?_)
  refine Finset.sum_congr rfl fun l _ => congrArg x (funext fun a => Fin.ext ?_)
  match a with
  | ⟨0, _⟩ => exact hr
  | ⟨1, _⟩ => rfl

/-- Dropping the last two coordinates of a rank-3 index keeps the first. -/
theorem drop_last_two_val {B n w : Nat} (h' : Shape.ReducesTo ⟨3, ![B, n, w]⟩ [1, 2] ⟨1, ![B]⟩)
    (i : (⟨3, ![B, n, w]⟩ : Shape).Idx) : (h'.drop i 0).val = (i 0).val := rfl

/-- The host's sum over the LAST TWO axes of a `[B, n, w]` array, at an index with coordinate `r`: the initial value
    plus the double sum over both dropped coordinates. -/
theorem host_last_two_sum {B n w : Nat} (x : (⟨3, ![B, n, w]⟩ : Shape).Idx → EReal) (init : EReal)
    (h' : Shape.ReducesTo ⟨3, ![B, n, w]⟩ [1, 2] ⟨1, ![B]⟩)
    (j : (⟨1, ![B]⟩ : Shape).Idx) (r : Fin B) (hr : (j 0).val = r.val) :
    Ideal.hostReduceAdd h' x init j = init + ∑ i : Fin n, ∑ l : Fin w, x (ix3 r i l) := by
  unfold Ideal.hostReduceAdd
  refine congrArg (init + ·) ?_
  rw [← Finset.sum_product' (s := (Finset.univ : Finset (Fin n))) (t := (Finset.univ : Finset (Fin w)))
    (f := fun i l => x (ix3 r i l))]
  refine Finset.sum_nbij' (fun i => ((⟨(i 1).val, (i 1).isLt⟩ : Fin n), (⟨(i 2).val, (i 2).isLt⟩ : Fin w)))
    (fun p => ix3 r p.1 p.2) ?_ ?_ ?_ ?_ ?_
  · intro i _; exact Finset.mem_product.2 ⟨Finset.mem_univ _, Finset.mem_univ _⟩
  · intro p _
    refine Finset.mem_filter.2 ⟨Finset.mem_univ _, funext fun b => Fin.ext ?_⟩
    match b with
    | ⟨0, _⟩ => exact ((drop_last_two_val h' (ix3 r p.1 p.2)).trans hr.symm)
  · intro i hi
    have hj : h'.drop i = j := (Finset.mem_filter.1 hi).2
    have h0 : (i 0).val = r.val := by
      rw [← drop_last_two_val h' i, hj]; exact hr
    funext a; apply Fin.ext
    match a with
    | ⟨0, _⟩ => exact h0.symm
    | ⟨1, _⟩ => rfl
    | ⟨2, _⟩ => rfl
  · intro p _; rfl
  · intro i hi
    have hj : h'.drop i = j := (Finset.mem_filter.1 hi).2
    have h0 : (i 0).val = r.val := by
      rw [← drop_last_two_val h' i, hj]; exact hr
    refine congrArg x (funext fun a => Fin.ext ?_)
    match a with
    | ⟨0, _⟩ => exact h0
    | ⟨1, _⟩ => rfl
    | ⟨2, _⟩ => rfl

end Idealize.ShloMosaic.AxisSums

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«156352_j73478300500078_1_alg».proof.Proof.LibPlainDotAny
import proofs.«156352_j73478300500078_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.LibRowMaps.lean ====
/-
  Entrywise maps and column layouts, read along one row.

  An entrywise operation on `[R, n]` arrays (a product, sum, difference, quotient, negation, exponential, logistic) acts
  on every row by itself: row `p` of the result is that operation applied entry by entry to row `p` of the operands. A
  scalar repeated over the array gives a constant row. An `[R, 1]` column repeated along the columns of an `[R, n]` array
  gives, in row `p`, the column's entry of row `p` at every position; so does an `[R]` vector stood up as an `[R, 1]`
  column. All at the ideal instance, where the kernel's and the host's spellings of an operation are one function.
-/
import proofs.«156352_j73478300500078_1_alg».proof.Proof.LibRowwise
import proofs.«156352_j73478300500078_1_alg».proof.Proof.LibKeepdims

noncomputable section

namespace Idealize.ShloMosaic.Rowwise

open Idealize.ShloMosaic Idealize.ShloMosaic.ValueIdx

variable {R n : Nat} {φ : FTy}

/-! ## Entrywise operations -/

theorem row_mulf (A B : FVec Ideal ⟨2, ![R, n]⟩ φ) (p : Fin R) :
    row (mulf A B) p = fun q => row A p q * row B p q := rfl

theorem row_addf (A B : FVec Ideal ⟨2, ![R, n]⟩ φ) (p : Fin R) :
    row (addf A B) p = fun q => row A p q + row B p q := rfl

theorem row_subf (A B : FVec Ideal ⟨2, ![R, n]⟩ φ) (p : Fin R) :
    row (subf A B) p = fun q => row A p q - row B p q := rfl

/-- The kernel's quotient. -/
theorem row_divf (A B : FVec Ideal ⟨2, ![R, n]⟩ φ) (p : Fin R) :
    row (divf A B) p = fun q => Ideal.div (row A p q) (row B p q) := rfl

/-- The host's quotient: the same function. -/
theorem row_hostDivf (A B : FVec Ideal ⟨2, ![R, n]⟩ φ) (p : Fin R) :
    row (Host.divf A B) p = fun q => Ideal.div (row A p q) (row B p q) := rfl

theorem row_negf (A : FVec Ideal ⟨2, ![R, n]⟩ φ) (p : Fin R) :
    row (negf A) p = fun q => -(row A p q) := rfl

theorem row_hostNegf (A : FVec Ideal ⟨2, ![R, n]⟩ φ) (p : Fin R) :
    row (Host.negf A) p = fun q => -(row A p q) := rfl

theorem row_exp (A : FVec Ideal ⟨2, ![R, n]⟩ φ) (p : Fin R) :
    row (exp A) p = fun q => Ideal.exp (row A p q) := rfl

theorem row_hostExp (A : FVec Ideal ⟨2, ![R, n]⟩ φ) (p : Fin R) :
    row (Host.exp A) p = fun q => Ideal.exp (row A p q) := rfl

theorem row_logistic (A : FVec Ideal ⟨2, ![R, n]⟩ φ) (p : Fin R) :
    row (logistic A) p = fun q => Ideal.logistic (row A p q) := rfl

/-! ## Constant rows -/

/-- A scalar repeated over the array. -/
theorem row_broadcast (z : Ideal φ) (p : Fin R) : row (broadcast ⟨2, ![R, n]⟩ z) p = fun _ => z := rfl

/-- A rank-0 constant laid over the array, the host's spelling of the same. -/
theorem row_scalarConstant (b : BitVec 32) (h : (⟨0, ![]⟩ : Shape).BroadcastsInDim ⟨2, ![R, n]⟩ ![]) (p : Fin R) :
    row (broadcastInDim ⟨2, ![R, n]⟩ ![] h (constant (F := Ideal) ⟨0, ![]⟩ .f32 b)) p = fun _ => Ideal.ofBits .f32 b := rfl

/-! ## A column repeated along the columns -/

/-- The kernel's broadcast of an `[R, 1]` column to `[R, n]`: row `p` holds the column's entry of row `p` throughout. -/
theorem row_broadcastTo_column (v : (⟨2, ![R, 1]⟩ : Shape).Idx → EReal) (h : (⟨2, ![R, 1]⟩ : Shape).Broadcasts ⟨2, ![R, n]⟩)
    (p : Fin R) : row (broadcastTo ⟨2, ![R, n]⟩ v h) p = fun _ => row v p 0 :=
  funext fun q => Keepdims.broadcastTo_a1_ab_apply v h p q

/-- The host's broadcast of an `[R, 1]` column to `[R, n]`, both axes kept in place. -/
theorem row_broadcastInDim_column (v : (⟨2, ![R, 1]⟩ : Shape).Idx → EReal)
    (h : (⟨2, ![R, 1]⟩ : Shape).BroadcastsInDim ⟨2, ![R, n]⟩ ![0, 1]) (p : Fin R) :
    row (broadcastInDim ⟨2, ![R, n]⟩ ![0, 1] h v) p = fun _ => row v p 0 := by
  funext q
  show broadcastInDim ⟨2, ![R, n]⟩ ![0, 1] h v (ix2 p q) = v (ix2 p 0)
  refine broadcastInDim_apply ![0, 1] h v (ix2 p q) (ix2 p 0) fun a => ?_
  match a with
  | ⟨0, _⟩ =>
    show p.val = if R = 1 then 0 else p.val
    split
    · have := p.isLt; omega
    · rfl
  | ⟨1, _⟩ => rfl

/-- An `[R]` vector stood up as an `[R, 1]` column: row `p` holds the vector's entry `p`. -/
theorem row_vector_as_column (x : (⟨1, ![R]⟩ : Shape).Idx → EReal)
    (h : (⟨1, ![R]⟩ : Shape).BroadcastsInDim ⟨2, ![R, 1]⟩ ![0]) (p : Fin R) :
    row (broadcastInDim ⟨2, ![R, 1]⟩ ![0] h x) p = fun _ => x (ix1 p) := by
  funext q
  show broadcastInDim ⟨2, ![R, 1]⟩ ![0] h x (ix2 p q) = x (ix1 p)
  refine broadcastInDim_apply ![0] h x (ix2 p q) (ix1 p) fun a => ?_
  match a with
  | ⟨0, _⟩ =>
    show p.val = if R = 1 then 0 else p.val
    split
    · have := p.isLt; omega
    · rfl

end Idealize.ShloMosaic.Rowwise

end
-- ==== Proof.LibLogSoftmaxRow.lean ====
/-
  A log-softmax over the last axis of a rank-2 array, read along one row, at the ideal values.

  For a row `z` of `w` entries put `m` for its greatest entry (folded from a starting value `b`); the row's
  log-softmax at position `q` is `(z q − m) − log Σₖ exp (z k − m)`. A kernel computes it on an `[B, w]` block with
  two lane reductions kept as `[B, 1]` columns and repeated along the rows; the host's `log_softmax` computes it on the
  whole array with two `reduce`s whose `[B]` results are stood up as columns and repeated likewise, and takes the
  maximum with the reduction's own starting value once more, which changes nothing. Both read, at `(p, q)`, as that one
  function of row `p`.
-/
import proofs.«156352_j73478300500078_1_alg».proof.Proof.LibRowMax
import proofs.«156352_j73478300500078_1_alg».proof.Proof.LibAxisSums
import proofs.«156352_j73478300500078_1_alg».proof.Proof.LibKeepdims
import proofs.«156352_j73478300500078_1_alg».proof.Proof.LibRowMaps
import Idealize.ShloMosaic.Lib.Pipeline.Value

noncomputable section

open scoped BigOperators

namespace Idealize.ShloMosaic.LogSoftmaxRow

open Idealize.ShloMosaic Idealize.ShloMosaic.ValueIdx

/-- The log-softmax of a row at position `q`, the row's maximum folded from `b`. -/
def logSoftmax {w : Nat} (b : EReal) (z : Fin w → EReal) (q : Fin w) : EReal :=
  (z q - RowMax.rowMax b z) - Ideal.log (∑ k : Fin w, Ideal.exp (z k - RowMax.rowMax b z))

variable {B w : Nat}

/-- A `[B]` vector recast as a column and repeated along the rows (the kernel's spelling) reads, anywhere in row `p`,
    the vector's entry `p`. -/
theorem column_apply (v : (⟨1, ![B]⟩ : Shape).Idx → EReal) (hc : (⟨1, ![B]⟩ : Shape).ShapeCasts ⟨2, ![B, 1]⟩)
    (hb : (⟨2, ![B, 1]⟩ : Shape).Broadcasts ⟨2, ![B, w]⟩) (p : Fin B) (k : Fin w) :
    broadcastTo ⟨2, ![B, w]⟩ (shapeCast ⟨2, ![B, 1]⟩ v hc) hb (ix2 p k) = v (ix1 p) :=
  (Keepdims.broadcastTo_a1_ab_apply _ hb p k).trans (Keepdims.shapeCast_a_a1_apply v hc p 0)

/-- A `[B]` vector stood up as a column and repeated along the rows (the host's spelling) reads, anywhere in row `p`,
    the vector's entry `p`. -/
theorem host_column_apply (v : (⟨1, ![B]⟩ : Shape).Idx → EReal) (hb2 : (⟨1, ![B]⟩ : Shape).BroadcastsInDim ⟨2, ![B, 1]⟩ ![0])
    (hb3 : (⟨2, ![B, 1]⟩ : Shape).BroadcastsInDim ⟨2, ![B, w]⟩ ![0, 1]) (p : Fin B) (k : Fin w) :
    broadcastInDim ⟨2, ![B, w]⟩ ![0, 1] hb3 (broadcastInDim ⟨2, ![B, 1]⟩ ![0] hb2 v) (ix2 p k) = v (ix1 p) :=
  (congrFun (Rowwise.row_broadcastInDim_column _ hb3 p) k).trans (congrFun (Rowwise.row_vector_as_column v hb2 p) 0)

/-- THE KERNEL'S SPELLING, at (p, q): subtract the row's maximum (a lane reduction kept as a column), exponentiate, sum
    along the lanes, take the logarithm of the column of sums, subtract it. -/
theorem kernel_apply (Y : FVec Ideal ⟨2, ![B, w]⟩ .f32) (negInf zero : BitVec 32)
    (hr : Shape.Reduces ⟨2, ![B, w]⟩ [1] ⟨1, ![B]⟩) (hφ : FKind.Formats .f32)
    (hm : negInf = FKind.maximumf.neutral .f32 hφ) (ha : zero = FKind.add.neutral .f32 hφ)
    (hc : (⟨1, ![B]⟩ : Shape).ShapeCasts ⟨2, ![B, 1]⟩) (hb : (⟨2, ![B, 1]⟩ : Shape).Broadcasts ⟨2, ![B, w]⟩)
    (p : Fin B) (q : Fin w) :
    subf (subf Y (broadcastTo ⟨2, ![B, w]⟩ (shapeCast ⟨2, ![B, 1]⟩ (multiReduction .maximumf [1] ⟨1, ![B]⟩ Y negInf hr hφ hm) hc) hb))
      (broadcastTo ⟨2, ![B, w]⟩ (log (shapeCast ⟨2, ![B, 1]⟩
        (multiReduction .add [1] ⟨1, ![B]⟩
          (exp (subf Y (broadcastTo ⟨2, ![B, w]⟩ (shapeCast ⟨2, ![B, 1]⟩ (multiReduction .maximumf [1] ⟨1, ![B]⟩ Y negInf hr hφ hm) hc) hb)))
          zero hr hφ ha) hc)) hb) (ix2 p q)
      = logSoftmax (Ideal.ofBits .f32 negInf) (fun k => Y (ix2 p k)) q := by
  have hMp : multiReduction .maximumf [1] ⟨1, ![B]⟩ Y negInf hr hφ hm (ix1 p)
      = RowMax.rowMax (Ideal.ofBits .f32 negInf) (fun k => Y (ix2 p k)) := RowMax.last_max Y negInf hr hφ hm (ix1 p) p rfl
  generalize multiReduction .maximumf [1] ⟨1, ![B]⟩ Y negInf hr hφ hm = M at hMp ⊢
  have hSp : multiReduction .add [1] ⟨1, ![B]⟩ (exp (subf Y (broadcastTo ⟨2, ![B, w]⟩ (shapeCast ⟨2, ![B, 1]⟩ M hc) hb))) zero hr hφ ha (ix1 p)
      = ∑ k : Fin w, Ideal.exp (Y (ix2 p k) - RowMax.rowMax (Ideal.ofBits .f32 negInf) (fun k => Y (ix2 p k))) := by
    refine (AxisSums.last_sum _ zero hr hφ ha (ix1 p) p rfl).trans (Finset.sum_congr rfl fun k _ => ?_)
    show Ideal.exp (Y (ix2 p k) - broadcastTo ⟨2, ![B, w]⟩ (shapeCast ⟨2, ![B, 1]⟩ M hc) hb (ix2 p k)) = _
    rw [column_apply, hMp]
  generalize multiReduction .add [1] ⟨1, ![B]⟩ (exp (subf Y (broadcastTo ⟨2, ![B, w]⟩ (shapeCast ⟨2, ![B, 1]⟩ M hc) hb))) zero hr hφ ha = S at hSp ⊢
  show (Y (ix2 p q) - broadcastTo ⟨2, ![B, w]⟩ (shapeCast ⟨2, ![B, 1]⟩ M hc) hb (ix2 p q))
      - broadcastTo ⟨2, ![B, w]⟩ (log (shapeCast ⟨2, ![B, 1]⟩ S hc)) hb (ix2 p q) = _
  rw [column_apply, hMp, Keepdims.broadcastTo_a1_ab_apply]
  show _ - Ideal.log (shapeCast ⟨2, ![B, 1]⟩ S hc (ix2 p (0 : Fin 1))) = _
  rw [Keepdims.shapeCast_a_a1_apply, hSp]
  rfl

/-- THE HOST'S SPELLING, at (p, q): the same, with `reduce`s into `[B]` vectors stood up as columns, the maximum taken
    once more with the reduction's starting value, and the sum started from a zero. -/
theorem host_apply (Y : FVec Ideal ⟨2, ![B, w]⟩ .f32) (negInf zero : BitVec 32) (hz : Ideal.ofBits .f32 zero = 0)
    (h' : Shape.ReducesTo ⟨2, ![B, w]⟩ [1] ⟨1, ![B]⟩) (hr : Shape.Reduces ⟨2, ![B, w]⟩ [1] ⟨1, ![B]⟩)
    (hu : 0 < (⟨0, ![]⟩ : Shape).numel)
    (hb1 : (⟨0, ![]⟩ : Shape).BroadcastsInDim ⟨1, ![B]⟩ ![])
    (hb2 : (⟨1, ![B]⟩ : Shape).BroadcastsInDim ⟨2, ![B, 1]⟩ ![0])
    (hb3 : (⟨2, ![B, 1]⟩ : Shape).BroadcastsInDim ⟨2, ![B, w]⟩ ![0, 1])
    (p : Fin B) (q : Fin w) :
    subf (subf Y (broadcastInDim ⟨2, ![B, w]⟩ ![0, 1] hb3 (broadcastInDim ⟨2, ![B, 1]⟩ ![0] hb2
          (maximumf (broadcastInDim ⟨1, ![B]⟩ ![] hb1 (constant (F := Ideal) ⟨0, ![]⟩ .f32 negInf))
            (Host.reduce FloatOps.maximumf Y (constant (F := Ideal) ⟨0, ![]⟩ .f32 negInf) h' hu)))))
      (broadcastInDim ⟨2, ![B, w]⟩ ![0, 1] hb3 (Host.log (broadcastInDim ⟨2, ![B, 1]⟩ ![0] hb2
        (Host.reduceAdd (Host.exp (subf Y (broadcastInDim ⟨2, ![B, w]⟩ ![0, 1] hb3 (broadcastInDim ⟨2, ![B, 1]⟩ ![0] hb2
          (maximumf (broadcastInDim ⟨1, ![B]⟩ ![] hb1 (constant (F := Ideal) ⟨0, ![]⟩ .f32 negInf))
            (Host.reduce FloatOps.maximumf Y (constant (F := Ideal) ⟨0, ![]⟩ .f32 negInf) h' hu))))))
          (constant (F := Ideal) ⟨0, ![]⟩ .f32 zero) h' hu)))) (ix2 p q)
      = logSoftmax (Ideal.ofBits .f32 negInf) (fun k => Y (ix2 p k)) q := by
  have hMp : maximumf (broadcastInDim ⟨1, ![B]⟩ ![] hb1 (constant (F := Ideal) ⟨0, ![]⟩ .f32 negInf))
        (Host.reduce FloatOps.maximumf Y (constant (F := Ideal) ⟨0, ![]⟩ .f32 negInf) h' hu) (ix1 p)
      = RowMax.rowMax (Ideal.ofBits .f32 negInf) (fun k => Y (ix2 p k)) := by
    show max (Ideal.ofBits .f32 negInf) (Host.reduce FloatOps.maximumf Y (constant (F := Ideal) ⟨0, ![]⟩ .f32 negInf) h' hu (ix1 p)) = _
    rw [RowMax.host_last_max Y _ h' hr hu (ix1 p) p rfl]
    exact RowMax.max_rowMax _ _
  generalize maximumf (broadcastInDim ⟨1, ![B]⟩ ![] hb1 (constant (F := Ideal) ⟨0, ![]⟩ .f32 negInf))
        (Host.reduce FloatOps.maximumf Y (constant (F := Ideal) ⟨0, ![]⟩ .f32 negInf) h' hu) = M at hMp ⊢
  have hSp : Host.reduceAdd (Host.exp (subf Y (broadcastInDim ⟨2, ![B, w]⟩ ![0, 1] hb3 (broadcastInDim ⟨2, ![B, 1]⟩ ![0] hb2 M))))
        (constant (F := Ideal) ⟨0, ![]⟩ .f32 zero) h' hu (ix1 p)
      = ∑ k : Fin w, Ideal.exp (Y (ix2 p k) - RowMax.rowMax (Ideal.ofBits .f32 negInf) (fun k => Y (ix2 p k))) := by
    simp only [Host.reduceAdd, Ideal.hostReduceAdd_def]
    refine (AxisSums.host_last_sum _ _ h' hr (ix1 p) p rfl).trans ?_
    have h0 : (constant (F := Ideal) ⟨0, ![]⟩ .f32 zero) (Shape.Idx.first hu) = 0 := hz
    rw [h0, zero_add]
    refine Finset.sum_congr rfl fun k _ => ?_
    show Ideal.exp (Y (ix2 p k) - broadcastInDim ⟨2, ![B, w]⟩ ![0, 1] hb3 (broadcastInDim ⟨2, ![B, 1]⟩ ![0] hb2 M) (ix2 p k)) = _
    rw [host_column_apply, hMp]
  generalize Host.reduceAdd (Host.exp (subf Y (broadcastInDim ⟨2, ![B, w]⟩ ![0, 1] hb3 (broadcastInDim ⟨2, ![B, 1]⟩ ![0] hb2 M))))
        (constant (F := Ideal) ⟨0, ![]⟩ .f32 zero) h' hu = S at hSp ⊢
  show (Y (ix2 p q) - broadcastInDim ⟨2, ![B, w]⟩ ![0, 1] hb3 (broadcastInDim ⟨2, ![B, 1]⟩ ![0] hb2 M) (ix2 p q))
      - broadcastInDim ⟨2, ![B, w]⟩ ![0, 1] hb3 (Host.log (broadcastInDim ⟨2, ![B, 1]⟩ ![0] hb2 S)) (ix2 p q) = _
  rw [host_column_apply, hMp]
  have hL : broadcastInDim ⟨2, ![B, w]⟩ ![0, 1] hb3 (Host.log (broadcastInDim ⟨2, ![B, 1]⟩ ![0] hb2 S)) (ix2 p q)
      = Ideal.log (S (ix1 p)) :=
    (congrFun (Rowwise.row_broadcastInDim_column _ hb3 p) q).trans
      (congrArg Ideal.log (congrFun (Rowwise.row_vector_as_column S hb2 p) 0))
  rw [hL, hSp]
  rfl

end Idealize.ShloMosaic.LogSoftmaxRow

end
-- ==== Proof.LogSoftmaxRows.lean ====
/-
  The second layer's bias and log-softmax, read off the fourth pallas call's blocks.

  The call walks the 100000 rows in 5 blocks of 20000. At a block it adds the one-row bias to every row, subtracts each
  row's greatest entry, and subtracts the logarithm of the row's sum of exponentials: the log-softmax of each biased row,
  a function of that row alone. Row p of block t is row 20000·t + p of the input, so the blocks are the restrictions of one
  row-by-row function of the whole arrays; the 5 blocks cover every row, so the result array ends holding that function of
  the input and the bias row.
-/
import proofs.«156352_j73478300500078_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«156352_j73478300500078_1_alg».proof.Proof.LibLogSoftmaxRow

noncomputable section

open scoped BigOperators

namespace Cert.KernelIdeal.LogSoftmaxRows

open Idealize.ShloMosaic Idealize.ShloMosaic.TcCoe Idealize.SL.Sem Idealize.ShloMosaic.ValueIdx
open Idealize.ShloMosaic.Pipeline (Dat Cfg Window)
open Cert.KernelIdeal Cert.KernelIdeal.Gen

-- `V`: the contents of the TensorCore's buffers when the call is entered.
variable (V : (c : Dev nD) → (b : Ref sig .tc) → Buf (Elt Ideal) ((c : Thread nD τ).loc b))

theorem origin : (![0, 0] : Fin 2 → Nat) = fun _ => 0 := funext fun a => by fin_cases a <;> rfl

/-- Every row plus the bias row, then the row's log-softmax (its maximum folded from the kernel's −∞ accumulator). -/
def layer (X : FVec Ideal ⟨2, ![100000, 40]⟩ .f32) (B : FVec Ideal ⟨2, ![1, 40]⟩ .f32) : FVec Ideal ⟨2, ![100000, 40]⟩ .f32 :=
  fun i => LogSoftmaxRow.logSoftmax (Ideal.ofBits .f32 0xFF800000#32) (fun k : Fin 40 => X (ix2 (i 0) k) + B (ix2 (0 : Fin 1) k)) (i 1)

theorem layer_apply (X : FVec Ideal ⟨2, ![100000, 40]⟩ .f32) (B : FVec Ideal ⟨2, ![1, 40]⟩ .f32) (r : Fin 100000) (q : Fin 40) :
    layer X B (ix2 r q)
      = LogSoftmaxRow.logSoftmax (Ideal.ofBits .f32 0xFF800000#32) (fun k : Fin 40 => X (ix2 r k) + B (ix2 (0 : Fin 1) k)) q := rfl

/-- Row p of block t is row 20000·t + p of the array. -/
def rowOf (t : Fin cfg3.N) (p : Fin 20000) : Fin 100000 :=
  ⟨t.val * 20000 + p.val, by have ht : t.val < 5 := t.isLt; have hp := p.isLt; omega⟩

/-- The printed index maps over the grid: the input's and the result's block t starts at row block t, column block 0;
    the bias row's one block is the whole row. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Where entry (p, q) of the input's block t sits in the input array. -/
theorem input_at (t : Fin cfg3.N) (p : Fin 20000) (q : Fin 40) :
    ((cfg3.win 0).blk t).view.emb (ix2 p q) = ix2 (rowOf t p) q := by
  obtain ⟨e0, e1, -⟩ := index_maps t
  funext a; apply Fin.ext
  match a with
  | ⟨0, _⟩ => show win3_0.index t (0 : Fin 2) * 20000 + 1 * p.val = t.val * 20000 + p.val; rw [e0]; omega
  | ⟨1, _⟩ => show win3_0.index t (1 : Fin 2) * 40 + 1 * q.val = q.val; rw [e1]; omega

/-- The bias row's block is the whole row. -/
theorem bias_at (t : Fin cfg3.N) (q : Fin 40) :
    ((cfg3.win 1).blk t).view.emb (ix2 (0 : Fin 1) q) = ix2 (0 : Fin 1) q := by
  obtain ⟨-, -, e0, e1, -⟩ := index_maps t
  funext a; apply Fin.ext
  match a with
  | ⟨0, _⟩ => show win3_1.index t (0 : Fin 2) * 1 + 1 * 0 = 0; rw [e0]
  | ⟨1, _⟩ => show win3_1.index t (1 : Fin 2) * 40 + 1 * q.val = q.val; rw [e1]; omega

/-- Where entry (p, q) of the result's block t sits in the result array. -/
theorem result_at (t : Fin cfg3.N) (p : Fin 20000) (q : Fin 40) :
    ((cfg3.win 2).blk t).view.emb (ix2 p q) = ix2 (rowOf t p) q := by
  obtain ⟨-, -, -, -, e0, e1⟩ := index_maps t
  funext a; apply Fin.ext
  match a with
  | ⟨0, _⟩ => show win3_2.index t (0 : Fin 2) * 20000 + 1 * p.val = t.val * 20000 + p.val; rw [e0]; omega
  | ⟨1, _⟩ => show win3_2.index t (1 : Fin 2) * 40 + 1 * q.val = q.val; rw [e1]; omega

/-- The body's value at (p, q): the log-softmax of the block's row p plus the bias row, at position q. -/
theorem body_apply (x0 : Vec Ideal S20000x40 .f32) (x1 : Vec Ideal S1x40 .f32) (p : Fin 20000) (q : Fin 40) :
    k3_pay1 (F := Ideal) x0 x1 (ix2 p q)
      = LogSoftmaxRow.logSoftmax (Ideal.ofBits .f32 0xFF800000#32) (fun k : Fin 40 => x0 (ix2 p k) + x1 (ix2 (0 : Fin 1) k)) q := by
  unfold k3_pay1
  refine (LogSoftmaxRow.kernel_apply _ 0xFF800000#32 0x00000000#32 _ _ _ _ _ _ p q).trans ?_
  refine congrArg (fun z => LogSoftmaxRow.logSoftmax (Ideal.ofBits .f32 0xFF800000#32) z q) (funext fun k => ?_)
  show shapeCast S20000x40 x0 _ (ix2 p k) + broadcastTo S20000x40 (shapeCast S1x40 x1 _) _ (ix2 p k) = _
  rw [shapeCast_self, shapeCast_self, broadcastTo_1b_ab_apply]

/-- What grid point t writes back is block t of the layer applied to the arrays as the call finds them. -/
theorem written_back (c : Dev nD) (t : Fin cfg3.N) :
    (dat3 (F := Ideal) V c).flushed 2 t
      = ((cfg3.win 2).blk t).view.read (Elt Ideal) (layer (V c main_v58) (V c main_v59)) := by
  show (cfg3.win 2).cut (grid3.coords t) ((dat3 V c).after 2 t) = _
  rw [after3_2]
  unfold out3_2
  rw [View.canon_unit_zero origin]
  simp only [View.ld_unit_zero (S := S20000x40) origin, View.ld_unit_zero (S := S1x40) origin]
  funext j
  obtain ⟨p, q, rfl⟩ : ∃ (p : Fin 20000) (q : Fin 40), j = ix2 p q := ⟨j 0, j 1, eq_ix2 j⟩
  refine (body_apply (iblk3 V c 0 t) (iblk3 V c 1 t) p q).trans ?_
  show _ = layer (V c main_v58) (V c main_v59) (((cfg3.win 2).blk t).view.emb (ix2 p q))
  rw [result_at, layer_apply]
  have ha : ∀ k : Fin 40, iblk3 V c 0 t (ix2 p k) = V c main_v58 (ix2 (rowOf t p) k) :=
    fun k => congrArg (V c main_v58) (input_at t p k)
  have hb : ∀ k : Fin 40, iblk3 V c 1 t (ix2 (0 : Fin 1) k) = V c main_v59 (ix2 (0 : Fin 1) k) :=
    fun k => congrArg (V c main_v59) (bias_at t k)
  refine congrArg (fun z => LogSoftmaxRow.logSoftmax (Ideal.ofBits .f32 0xFF800000#32) z q) (funext fun k => ?_)
  rw [ha, hb]

/-- An index of the result array is in block t exactly when its row is in the block's 20000 rows. -/
theorem in_block (t : Fin cfg3.N) (i : S100000x40.Idx) :
    i ∈ ((cfg3.win 2).blk t).view.set ↔ ∀ a : Fin 2, win3_2.index t a * S20000x40.size a ≤ (i a).val ∧ (i a).val < win3_2.index t a * S20000x40.size a + S20000x40.size a := by
  show i ∈ ((View.whole main_v60).slice (win3_2.rect t)).set ↔ _
  rw [View.set_slice_whole, Rect.mem_set_unit]
  exact Iff.rfl

/-- Every index of the result array lies in the block of the grid point its row falls in. -/
theorem covered (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  let t : Fin cfg3.N := ⟨(i 0).val / 20000, by show (i 0).val / 20000 < 5; omega⟩
  obtain ⟨-, -, -, -, e0, e1⟩ := index_maps t
  have ht : t.val = (i 0).val / 20000 := rfl
  refine ⟨t, flush3_2 t, ?_⟩
  rw [in_block]
  intro a
  match a with
  | ⟨0, _⟩ => show win3_2.index t (0 : Fin 2) * 20000 ≤ (i 0).val ∧ (i 0).val < win3_2.index t (0 : Fin 2) * 20000 + 20000; rw [e0, ht]; omega
  | ⟨1, _⟩ => show win3_2.index t (1 : Fin 2) * 40 ≤ (i 1).val ∧ (i 1).val < win3_2.index t (1 : Fin 2) * 40 + 40; rw [e1]; omega

/-- After the call the result array holds the layer applied to the arrays the call found. -/
theorem result (c : Dev nD) :
    (dat3 (F := Ideal) V c).arrAt 2 cfg3.N = layer (V c main_v58) (V c main_v59) :=
  (dat3 (F := Ideal) V c).arrAt_eq_of_cover 2 (layer (V c main_v58) (V c main_v59))
    (fun t _ => written_back V c t) covered

end Cert.KernelIdeal.LogSoftmaxRows

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.Layers.lean ====
/-
  The two bias layers, in the kernel's spelling and the reference's.

  First layer. The kernel adds the bias as a one-row array (the bias vector recast as a 1×128 row) to every row of the
  aggregated features and raises every entry to at least zero. The reference lays the bias vector along axis 1 of a 1×128
  array, repeats that down the 100000 rows, adds, and takes the maximum with a zero repeated over the array. Entry by
  entry both are max (x (r, q) + b q, 0), the two zeros the same word.

  Second layer. The kernel adds the bias row likewise and takes each row's log-softmax; the reference adds the bias the
  same way and calls log_softmax on the sum. Row by row both are the one function of the row of `x (r, ·) + b` that
  Proof/LibLogSoftmaxRow.lean names.
-/
import proofs.«156352_j73478300500078_1_alg».proof.Proof.BiasFloor
import proofs.«156352_j73478300500078_1_alg».proof.Proof.LogSoftmaxRows
import proofs.«156352_j73478300500078_1_alg».proof.Proof.RefRead
import proofs.«156352_j73478300500078_1_alg».proof.Proof.LibRowOfVector

noncomputable section

open scoped BigOperators

namespace Cert.KernelIdeal.Layers

open Idealize.ShloMosaic Idealize.ShloMosaic.TcCoe Idealize.ShloMosaic.ValueIdx
open Cert.ReferenceIdeal.RunRead

/-- The reference's bias vector laid as a row and repeated down the rows reads, at (r, q), the vector's entry q (first
    layer, 128 columns). -/
theorem bias128_apply (b : FVec Ideal ⟨1, ![128]⟩ .f32) (r : Fin 100000) (q : Fin 128) :
    val_main_v45 (F := Ideal) b (ix2 r q) = b (ix1 q) := by
  rw [val_main_v45_apply, val_main_v44_apply]
  exact congrArg b (funext fun a => Fin.ext (by match a with | ⟨0, _⟩ => rfl))

/-- The same for the second layer's 40 columns. -/
theorem bias40_apply (b : FVec Ideal ⟨1, ![40]⟩ .f32) (r : Fin 100000) (q : Fin 40) :
    val_main_v62 (F := Ideal) b (ix2 r q) = b (ix1 q) := by
  rw [val_main_v62_apply, val_main_v61_apply]
  exact congrArg b (funext fun a => Fin.ext (by match a with | ⟨0, _⟩ => rfl))

/-- FIRST LAYER: the kernel's bias-and-rectifier of an array and the bias vector's one-row recast is the reference's
    `relu (x + b)`. -/
theorem biasFloor_eq (X : FVec Ideal ⟨2, ![100000, 128]⟩ .f32) (b : FVec Ideal ⟨1, ![128]⟩ .f32)
    (h : (⟨1, ![128]⟩ : Shape).ShapeCasts ⟨2, ![1, 128]⟩) :
    Cert.KernelIdeal.BiasFloor.layer X (shapeCast ⟨2, ![1, 128]⟩ b h)
      = maximumf (addf X (val_main_v45 (F := Ideal) b)) (val_main_call1_v0 (F := Ideal)) := by
  funext i
  obtain ⟨r, q, rfl⟩ : ∃ (r : Fin 100000) (q : Fin 128), i = ix2 r q := ⟨i 0, i 1, eq_ix2 i⟩
  rw [Cert.KernelIdeal.BiasFloor.layer_apply, RowOfVector.apply]
  show _ = max (X (ix2 r q) + val_main_v45 (F := Ideal) b (ix2 r q)) (val_main_call1_v0 (F := Ideal) (ix2 r q))
  rw [bias128_apply]
  rfl

/-- The reference's `log_softmax` of its biased scores, read along a row. -/
theorem host_logSoftmax_apply (a0 : FVec Ideal ⟨2, ![100000, 500]⟩ .f32) (a1 : IVec ⟨2, ![2, 1600000]⟩ 32)
    (a2 : FVec Ideal ⟨2, ![500, 128]⟩ .f32) (a3 : FVec Ideal ⟨1, ![128]⟩ .f32) (a4 : FVec Ideal ⟨2, ![128, 40]⟩ .f32)
    (a5 : FVec Ideal ⟨1, ![40]⟩ .f32) (r : Fin 100000) (q : Fin 40) :
    val_main_v64 (F := Ideal) a0 a1 a2 a3 a4 a5 (ix2 r q)
      = LogSoftmaxRow.logSoftmax (Ideal.ofBits .f32 0xFF800000#32)
          (fun k : Fin 40 => val_main_v63 (F := Ideal) a0 a1 a2 a3 a4 a5 (ix2 r k)) q := by
  unfold val_main_v64 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  generalize val_main_v63 (F := Ideal) a0 a1 a2 a3 a4 a5 = Y
  exact LogSoftmaxRow.host_apply Y 0xFF800000#32 0x00000000#32 Ideal.ofBits_zero_f32
      Cert.ReferenceIdeal.Gen.reducesTo_S100000x40_S100000_d1 (by decide) Cert.ReferenceIdeal.Gen.h_S_
      Cert.ReferenceIdeal.Gen.bcast_S_S100000 Cert.ReferenceIdeal.Gen.bcast_S100000_S100000x1_0
      Cert.ReferenceIdeal.Gen.bcast_S100000x1_S100000x40_0_1 r q

/-- SECOND LAYER: the kernel's bias-and-log-softmax of the aggregated scores and the bias vector's one-row recast is the
    reference's `log_softmax (x + b)`, for the reference's own aggregated scores `x`. -/
theorem logSoftmax_eq (a0 : FVec Ideal ⟨2, ![100000, 500]⟩ .f32) (a1 : IVec ⟨2, ![2, 1600000]⟩ 32)
    (a2 : FVec Ideal ⟨2, ![500, 128]⟩ .f32) (a3 : FVec Ideal ⟨1, ![128]⟩ .f32) (a4 : FVec Ideal ⟨2, ![128, 40]⟩ .f32)
    (a5 : FVec Ideal ⟨1, ![40]⟩ .f32) (h : (⟨1, ![40]⟩ : Shape).ShapeCasts ⟨2, ![1, 40]⟩) :
    Cert.KernelIdeal.LogSoftmaxRows.layer (val_main_v60 (F := Ideal) a0 a1 a2 a3 a4) (shapeCast ⟨2, ![1, 40]⟩ a5 h)
      = val_main_v64 (F := Ideal) a0 a1 a2 a3 a4 a5 := by
  funext i
  obtain ⟨r, q, rfl⟩ : ∃ (r : Fin 100000) (q : Fin 40), i = ix2 r q := ⟨i 0, i 1, eq_ix2 i⟩
  rw [Cert.KernelIdeal.LogSoftmaxRows.layer_apply]
  rw [host_logSoftmax_apply]
  refine congrArg (fun z => LogSoftmaxRow.logSoftmax (Ideal.ofBits .f32 0xFF800000#32) z q) (funext fun k => ?_)
  rw [val_main_v63_apply, bias40_apply, RowOfVector.apply]
  exact (Ideal.addf_def _ _).symm

end Cert.KernelIdeal.Layers

end
-- ==== Proof.Bridge.lean ====
/-
  The kernel's buffers at each boundary of @main, in the reference's stages.

  @main of the kernel is: three stretches of host operations (the edge lists with self loops, the degree normalisation,
  the per-edge weights), the first product call, a stretch (gather the projected rows by source, scale, scatter-add by
  destination; the bias recast as a row), the bias-and-rectifier call, the second product call, a stretch (the same
  aggregation on the 40 scores; the second bias as a row), and the bias-and-log-softmax call. The reference does the same
  host operations in the same order, with a `dot_general`, an add and a maximum, a `dot_general`, and `log_softmax` where
  the kernel has its four calls. So, boundary by boundary, each buffer a later item reads holds the reference's stage of
  the same name: a host stretch maps equal inputs to equal outputs because it is the same operations, and each call's
  result array is the reference's stage by that call's value (the four modules this one imports).

  Each host stretch is read over an arbitrary valuation of the buffers before it, with the facts about the few buffers
  it reads as hypotheses, so that no step looks further back than one stretch.
-/
import proofs.«156352_j73478300500078_1_alg».proof.Proof.Gen.KernelIdeal.Frame
import proofs.«156352_j73478300500078_1_alg».proof.Proof.RefRead
import proofs.«156352_j73478300500078_1_alg».proof.Proof.ProductOne
import proofs.«156352_j73478300500078_1_alg».proof.Proof.ProductTwo
import proofs.«156352_j73478300500078_1_alg».proof.Proof.BiasFloor
import proofs.«156352_j73478300500078_1_alg».proof.Proof.LogSoftmaxRows
import proofs.«156352_j73478300500078_1_alg».proof.Proof.Layers
import Idealize.ShloMosaic.Lib.StableHlo.Run
import proofs.«156352_j73478300500078_1_alg».proof.Proof.LibTypedRef

noncomputable section

namespace Cert.KernelIdeal.Bridge

open Idealize.ShloMosaic Idealize.ShloMosaic.TcCoe Idealize.SL.Sem Idealize.ShloMosaic.StableHlo
open Cert.KernelIdeal Cert.KernelIdeal.Gen
open Cert.ReferenceIdeal.RunRead (val_main_v3 val_main_v6 val_main_v12 val_main_v13 val_main_cst_2 val_main_v14 val_main_v30 val_main_v31
  val_main_v43 val_main_v47 val_main_v48 val_main_v60 val_main_v64)

/-! ## The host stretches, each over an arbitrary valuation before it -/

section Stretches

variable (Wp : Valuation τ sig (Elt Ideal)) (x1 : IVec ⟨2, ![2, 1600000]⟩ 32)

/-- Stretch 1 (edge lists, degrees): the source list with self loops. -/
theorem s0_v3 (h1 : Wp (Proc.devRef .tc main_arg1) = x1) : after hostOps0 Wp (Proc.devRef .tc main_v3) = val_main_v3 (F := Ideal) x1 := by
  subst h1; after_results_simp; rfl
/-- … the destination list with self loops. -/
theorem s0_v6 (h1 : Wp (Proc.devRef .tc main_arg1) = x1) : after hostOps0 Wp (Proc.devRef .tc main_v6) = val_main_v6 (F := Ideal) x1 := by
  subst h1; after_results_simp; rfl
/-- … whether a node's degree is positive. -/
theorem s0_v12 (h1 : Wp (Proc.devRef .tc main_arg1) = x1) : after hostOps0 Wp (Proc.devRef .tc main_v12) = val_main_v12 (F := Ideal) x1 := by
  subst h1; after_results_simp; rfl
/-- … the reciprocal square root of the degrees. -/
theorem s0_v13 (h1 : Wp (Proc.devRef .tc main_arg1) = x1) : after hostOps0 Wp (Proc.devRef .tc main_v13) = val_main_v13 (F := Ideal) x1 := by
  subst h1; after_results_simp; rfl
/-- … the zero the normalisation falls back to. -/
theorem s0_cst2 : after hostOps0 Wp (Proc.devRef .tc main_cst_2) = val_main_cst_2 (F := Ideal) := by
  after_results_simp; rfl
/-- Stretch 1 writes none of @main's arguments. -/
theorem s0_keep (b : Ref sig .tc) (hb : b = main_arg0 ∨ b = main_arg2 ∨ b = main_arg3 ∨ b = main_arg4 ∨ b = main_arg5) :
    after hostOps0 Wp (Proc.devRef .tc b) = Wp (Proc.devRef .tc b) := by
  rcases hb with rfl | rfl | rfl | rfl | rfl <;> (after_results_simp)

/-- Reading or writing one of the `where` call's literal buffers through its typed reference is the identity on any
    contents (the reference's type equation is between equal types). -/
theorem ofBuf_v12 (A : (main_v12 : Ref sig .tc).ty.Contents (Elt Ideal)) :
    (TRef.of (T := ⟨S100000, .i1⟩) main_v12).ofBuf A = A := rfl
theorem ofBuf_v13 (A : (main_v13 : Ref sig .tc).ty.Contents (Elt Ideal)) :
    (TRef.of (T := ⟨S100000, .f32⟩) main_v13).ofBuf A = A := rfl
theorem ofBuf_cst2 (A : (main_cst_2 : Ref sig .tc).ty.Contents (Elt Ideal)) :
    (TRef.of (T := ⟨S_, .f32⟩) main_cst_2).ofBuf A = A := rfl
theorem toBuf_v14 (A : (⟨S100000, .f32⟩ : BufTy).Contents (Elt Ideal)) :
    (TRef.of (T := ⟨S100000, .f32⟩) main_v14).toBuf A = A := rfl

/-- Stretch 2 (the `where` of the normalisation): the inverse square-root degrees, zero where the degree is not positive.
    Inside the call each value is written through a typed reference and read back through it, which cancels; the reads of
    the three operands and the write of the result are the identities above. -/
theorem s01_v14 (h12 : Wp (Proc.devRef .tc main_v12) = val_main_v12 (F := Ideal) x1) (h13 : Wp (Proc.devRef .tc main_v13) = val_main_v13 (F := Ideal) x1)
    (hc : Wp (Proc.devRef .tc main_cst_2) = val_main_cst_2 (F := Ideal)) :
    after hostOps0_1 Wp (Proc.devRef .tc main_v14) = val_main_v14 (F := Ideal) x1 := by
  after_results_simp
  simp only [Idealize.ShloMosaic.TypedRef.ofBuf_toBuf, Idealize.ShloMosaic.TypedRef.toBuf_ofBuf, ofBuf_v12, ofBuf_v13, ofBuf_cst2, toBuf_v14]
  rw [h12, h13, hc]
  rfl
/-- Stretch 2 writes only the call's own three buffers. -/
theorem s01_keep (b : Ref sig .tc) (hb : b = main_v3 ∨ b = main_v6 ∨ b = main_arg0 ∨ b = main_arg2 ∨ b = main_arg3 ∨ b = main_arg4 ∨ b = main_arg5) :
    after hostOps0_1 Wp (Proc.devRef .tc b) = Wp (Proc.devRef .tc b) := by
  rcases hb with rfl | rfl | rfl | rfl | rfl | rfl | rfl <;> (after_results_simp)

/-- Stretch 3 (per-edge weights): the product of the two endpoints' normalisations, as a column. -/
theorem s02_v30 (h3 : Wp (Proc.devRef .tc main_v3) = val_main_v3 (F := Ideal) x1) (h6 : Wp (Proc.devRef .tc main_v6) = val_main_v6 (F := Ideal) x1)
    (h14 : Wp (Proc.devRef .tc main_v14) = val_main_v14 (F := Ideal) x1) :
    after hostOps0_2 Wp (Proc.devRef .tc main_v30) = val_main_v30 (F := Ideal) x1 := by
  after_results_simp
  rw [h3, h6, h14]
  rfl
theorem s02_keep (b : Ref sig .tc) (hb : b = main_v3 ∨ b = main_v6 ∨ b = main_arg0 ∨ b = main_arg2 ∨ b = main_arg3 ∨ b = main_arg4 ∨ b = main_arg5) :
    after hostOps0_2 Wp (Proc.devRef .tc b) = Wp (Proc.devRef .tc b) := by
  rcases hb with rfl | rfl | rfl | rfl | rfl | rfl | rfl <;> (after_results_simp)

variable (x0 : FVec Ideal ⟨2, ![100000, 500]⟩ .f32) (x2 : FVec Ideal ⟨2, ![500, 128]⟩ .f32) (x3 : FVec Ideal ⟨1, ![128]⟩ .f32)
  (x4 : FVec Ideal ⟨2, ![128, 40]⟩ .f32) (x5 : FVec Ideal ⟨1, ![40]⟩ .f32)

/-- Stretch 4 (first aggregation): the projected rows gathered by source, scaled, scatter-added by destination. -/
theorem s1_v43 (h3 : Wp (Proc.devRef .tc main_v3) = val_main_v3 (F := Ideal) x1) (h6 : Wp (Proc.devRef .tc main_v6) = val_main_v6 (F := Ideal) x1)
    (h30 : Wp (Proc.devRef .tc main_v30) = val_main_v30 (F := Ideal) x1) (h31 : Wp (Proc.devRef .tc main_v31) = val_main_v31 (F := Ideal) x0 x2) :
    after hostOps1 Wp (Proc.devRef .tc main_v43) = val_main_v43 (F := Ideal) x0 x1 x2 := by
  after_results_simp
  rw [h3, h6, h30, h31]
  rfl
/-- … the first bias, recast as a one-row array. -/
theorem s1_v44 (h : Wp (Proc.devRef .tc main_arg3) = x3) :
    after hostOps1 Wp (Proc.devRef .tc main_v44) = shapeCast S1x128 x3 Cert.KernelIdeal.Gen.shapeCasts_S128_S1x128 := by
  subst h; after_results_simp; rfl
theorem s1_keep (b : Ref sig .tc) (hb : b = main_v3 ∨ b = main_v6 ∨ b = main_v30 ∨ b = main_arg4 ∨ b = main_arg5) :
    after hostOps1 Wp (Proc.devRef .tc b) = Wp (Proc.devRef .tc b) := by
  rcases hb with rfl | rfl | rfl | rfl | rfl <;> (after_results_simp)

/-- Stretch 5 (second aggregation): the same on the 40 scores. -/
theorem s3_v58 (h3 : Wp (Proc.devRef .tc main_v3) = val_main_v3 (F := Ideal) x1) (h6 : Wp (Proc.devRef .tc main_v6) = val_main_v6 (F := Ideal) x1)
    (h30 : Wp (Proc.devRef .tc main_v30) = val_main_v30 (F := Ideal) x1) (h46 : Wp (Proc.devRef .tc main_v46) = val_main_v48 (F := Ideal) x0 x1 x2 x3 x4) :
    after hostOps3 Wp (Proc.devRef .tc main_v58) = val_main_v60 (F := Ideal) x0 x1 x2 x3 x4 := by
  after_results_simp
  rw [h3, h6, h30, h46]
  rfl
/-- … the second bias, recast as a one-row array. -/
theorem s3_v59 (h : Wp (Proc.devRef .tc main_arg5) = x5) :
    after hostOps3 Wp (Proc.devRef .tc main_v59) = shapeCast S1x40 x5 Cert.KernelIdeal.Gen.shapeCasts_S40_S1x40 := by
  subst h; after_results_simp; rfl

end Stretches

/-! ## The boundaries of @main, from the launch to the return -/

section Boundaries

variable (m : (ℓ : Loc nD τ sig) → Buf (Elt Ideal) ℓ) (ρ : Dev nD → PrngReg) (c : Dev nD)

/-- @main's six arguments as launched. -/
abbrev a0 : FVec Ideal ⟨2, ![100000, 500]⟩ .f32 := m ((c.tc : Thread nD τ).loc main_arg0)
abbrev a1 : IVec ⟨2, ![2, 1600000]⟩ 32 := m ((c.tc : Thread nD τ).loc main_arg1)
abbrev a2 : FVec Ideal ⟨2, ![500, 128]⟩ .f32 := m ((c.tc : Thread nD τ).loc main_arg2)
abbrev a3 : FVec Ideal ⟨1, ![128]⟩ .f32 := m ((c.tc : Thread nD τ).loc main_arg3)
abbrev a4 : FVec Ideal ⟨2, ![128, 40]⟩ .f32 := m ((c.tc : Thread nD τ).loc main_arg4)
abbrev a5 : FVec Ideal ⟨1, ![40]⟩ .f32 := m ((c.tc : Thread nD τ).loc main_arg5)

/-! ### After the first stretch -/
theorem b1_v3 : W1 m ρ c (Proc.devRef .tc main_v3) = val_main_v3 (F := Ideal) (a1 m c) := s0_v3 (W0 m ρ c) (a1 m c) rfl
theorem b1_v6 : W1 m ρ c (Proc.devRef .tc main_v6) = val_main_v6 (F := Ideal) (a1 m c) := s0_v6 (W0 m ρ c) (a1 m c) rfl
theorem b1_v12 : W1 m ρ c (Proc.devRef .tc main_v12) = val_main_v12 (F := Ideal) (a1 m c) := s0_v12 (W0 m ρ c) (a1 m c) rfl
theorem b1_v13 : W1 m ρ c (Proc.devRef .tc main_v13) = val_main_v13 (F := Ideal) (a1 m c) := s0_v13 (W0 m ρ c) (a1 m c) rfl
theorem b1_cst2 : W1 m ρ c (Proc.devRef .tc main_cst_2) = val_main_cst_2 (F := Ideal) := s0_cst2 (W0 m ρ c)
theorem b1_arg0 : W1 m ρ c (Proc.devRef .tc main_arg0) = a0 m c := s0_keep (W0 m ρ c) main_arg0 (Or.inl rfl)
theorem b1_arg2 : W1 m ρ c (Proc.devRef .tc main_arg2) = a2 m c := s0_keep (W0 m ρ c) main_arg2 (Or.inr (Or.inl rfl))
theorem b1_arg3 : W1 m ρ c (Proc.devRef .tc main_arg3) = a3 m c := s0_keep (W0 m ρ c) main_arg3 (Or.inr (Or.inr (Or.inl rfl)))
theorem b1_arg4 : W1 m ρ c (Proc.devRef .tc main_arg4) = a4 m c := s0_keep (W0 m ρ c) main_arg4 (Or.inr (Or.inr (Or.inr (Or.inl rfl))))
theorem b1_arg5 : W1 m ρ c (Proc.devRef .tc main_arg5) = a5 m c := s0_keep (W0 m ρ c) main_arg5 (Or.inr (Or.inr (Or.inr (Or.inr (rfl)))))

/-! ### After the normalisation's `where` -/
theorem b2_v14 : W2 m ρ c (Proc.devRef .tc main_v14) = val_main_v14 (F := Ideal) (a1 m c) :=
  s01_v14 (W1 m ρ c) (a1 m c) (b1_v12 m ρ c) (b1_v13 m ρ c) (b1_cst2 m ρ c)
theorem b2_v3 : W2 m ρ c (Proc.devRef .tc main_v3) = val_main_v3 (F := Ideal) (a1 m c) := (s01_keep (W1 m ρ c) main_v3 (Or.inl rfl)).trans (b1_v3 m ρ c)
theorem b2_v6 : W2 m ρ c (Proc.devRef .tc main_v6) = val_main_v6 (F := Ideal) (a1 m c) := (s01_keep (W1 m ρ c) main_v6 (Or.inr (Or.inl rfl))).trans (b1_v6 m ρ c)
theorem b2_arg0 : W2 m ρ c (Proc.devRef .tc main_arg0) = a0 m c := (s01_keep (W1 m ρ c) main_arg0 (Or.inr (Or.inr (Or.inl rfl)))).trans (b1_arg0 m ρ c)
theorem b2_arg2 : W2 m ρ c (Proc.devRef .tc main_arg2) = a2 m c := (s01_keep (W1 m ρ c) main_arg2 (Or.inr (Or.inr (Or.inr (Or.inl rfl))))).trans (b1_arg2 m ρ c)
theorem b2_arg3 : W2 m ρ c (Proc.devRef .tc main_arg3) = a3 m c := (s01_keep (W1 m ρ c) main_arg3 (Or.inr (Or.inr (Or.inr (Or.inr (Or.inl rfl)))))).trans (b1_arg3 m ρ c)
theorem b2_arg4 : W2 m ρ c (Proc.devRef .tc main_arg4) = a4 m c := (s01_keep (W1 m ρ c) main_arg4 (Or.inr (Or.inr (Or.inr (Or.inr (Or.inr (Or.inl rfl))))))).trans (b1_arg4 m ρ c)
theorem b2_arg5 : W2 m ρ c (Proc.devRef .tc main_arg5) = a5 m c := (s01_keep (W1 m ρ c) main_arg5 (Or.inr (Or.inr (Or.inr (Or.inr (Or.inr (Or.inr (rfl)))))))).trans (b1_arg5 m ρ c)

/-! ### At the first call's entry -/
theorem b3_v30 : W3 m ρ c (Proc.devRef .tc main_v30) = val_main_v30 (F := Ideal) (a1 m c) :=
  s02_v30 (W2 m ρ c) (a1 m c) (b2_v3 m ρ c) (b2_v6 m ρ c) (b2_v14 m ρ c)
theorem b3_v3 : W3 m ρ c (Proc.devRef .tc main_v3) = val_main_v3 (F := Ideal) (a1 m c) := (s02_keep (W2 m ρ c) main_v3 (Or.inl rfl)).trans (b2_v3 m ρ c)
theorem b3_v6 : W3 m ρ c (Proc.devRef .tc main_v6) = val_main_v6 (F := Ideal) (a1 m c) := (s02_keep (W2 m ρ c) main_v6 (Or.inr (Or.inl rfl))).trans (b2_v6 m ρ c)
theorem b3_arg0 : W3 m ρ c (Proc.devRef .tc main_arg0) = a0 m c := (s02_keep (W2 m ρ c) main_arg0 (Or.inr (Or.inr (Or.inl rfl)))).trans (b2_arg0 m ρ c)
theorem b3_arg2 : W3 m ρ c (Proc.devRef .tc main_arg2) = a2 m c := (s02_keep (W2 m ρ c) main_arg2 (Or.inr (Or.inr (Or.inr (Or.inl rfl))))).trans (b2_arg2 m ρ c)
theorem b3_arg3 : W3 m ρ c (Proc.devRef .tc main_arg3) = a3 m c := (s02_keep (W2 m ρ c) main_arg3 (Or.inr (Or.inr (Or.inr (Or.inr (Or.inl rfl)))))).trans (b2_arg3 m ρ c)
theorem b3_arg4 : W3 m ρ c (Proc.devRef .tc main_arg4) = a4 m c := (s02_keep (W2 m ρ c) main_arg4 (Or.inr (Or.inr (Or.inr (Or.inr (Or.inr (Or.inl rfl))))))).trans (b2_arg4 m ρ c)
theorem b3_arg5 : W3 m ρ c (Proc.devRef .tc main_arg5) = a5 m c := (s02_keep (W2 m ρ c) main_arg5 (Or.inr (Or.inr (Or.inr (Or.inr (Or.inr (Or.inr (rfl)))))))).trans (b2_arg5 m ρ c)

/-! ### At the first call's exit: its result array holds the first product; the call writes nothing else -/
theorem b4_v31 : W4 m ρ c (Proc.devRef .tc main_v31) = val_main_v31 (F := Ideal) (a0 m c) (a2 m c) :=
  (W4_arr m ρ c 2).trans ((ProductOne.result (V3 m ρ) c).trans
    ((congrArg₂ ProductOne.product (b3_arg0 m ρ c) (b3_arg2 m ρ c)).trans rfl))
theorem b4_v3 : W4 m ρ c (Proc.devRef .tc main_v3) = val_main_v3 (F := Ideal) (a1 m c) := (W4_of_ne m ρ c main_v3 (by decide)).trans (b3_v3 m ρ c)
theorem b4_v6 : W4 m ρ c (Proc.devRef .tc main_v6) = val_main_v6 (F := Ideal) (a1 m c) := (W4_of_ne m ρ c main_v6 (by decide)).trans (b3_v6 m ρ c)
theorem b4_v30 : W4 m ρ c (Proc.devRef .tc main_v30) = val_main_v30 (F := Ideal) (a1 m c) := (W4_of_ne m ρ c main_v30 (by decide)).trans (b3_v30 m ρ c)
theorem b4_arg3 : W4 m ρ c (Proc.devRef .tc main_arg3) = a3 m c := (W4_of_ne m ρ c main_arg3 (by decide)).trans (b3_arg3 m ρ c)
theorem b4_arg4 : W4 m ρ c (Proc.devRef .tc main_arg4) = a4 m c := (W4_of_ne m ρ c main_arg4 (by decide)).trans (b3_arg4 m ρ c)
theorem b4_arg5 : W4 m ρ c (Proc.devRef .tc main_arg5) = a5 m c := (W4_of_ne m ρ c main_arg5 (by decide)).trans (b3_arg5 m ρ c)

/-! ### At the second call's entry -/
theorem b5_v43 : W5 m ρ c (Proc.devRef .tc main_v43) = val_main_v43 (F := Ideal) (a0 m c) (a1 m c) (a2 m c) :=
  s1_v43 (W4 m ρ c) (a1 m c) (a0 m c) (a2 m c) (b4_v3 m ρ c) (b4_v6 m ρ c) (b4_v30 m ρ c) (b4_v31 m ρ c)
theorem b5_v44 : W5 m ρ c (Proc.devRef .tc main_v44) = shapeCast S1x128 (a3 m c) Cert.KernelIdeal.Gen.shapeCasts_S128_S1x128 :=
  s1_v44 (W4 m ρ c) (a3 m c) (b4_arg3 m ρ c)
theorem b5_v3 : W5 m ρ c (Proc.devRef .tc main_v3) = val_main_v3 (F := Ideal) (a1 m c) := (s1_keep (W4 m ρ c) main_v3 (Or.inl rfl)).trans (b4_v3 m ρ c)
theorem b5_v6 : W5 m ρ c (Proc.devRef .tc main_v6) = val_main_v6 (F := Ideal) (a1 m c) := (s1_keep (W4 m ρ c) main_v6 (Or.inr (Or.inl rfl))).trans (b4_v6 m ρ c)
theorem b5_v30 : W5 m ρ c (Proc.devRef .tc main_v30) = val_main_v30 (F := Ideal) (a1 m c) := (s1_keep (W4 m ρ c) main_v30 (Or.inr (Or.inr (Or.inl rfl)))).trans (b4_v30 m ρ c)
theorem b5_arg4 : W5 m ρ c (Proc.devRef .tc main_arg4) = a4 m c := (s1_keep (W4 m ρ c) main_arg4 (Or.inr (Or.inr (Or.inr (Or.inl rfl))))).trans (b4_arg4 m ρ c)
theorem b5_arg5 : W5 m ρ c (Proc.devRef .tc main_arg5) = a5 m c := (s1_keep (W4 m ρ c) main_arg5 (Or.inr (Or.inr (Or.inr (Or.inr (rfl)))))).trans (b4_arg5 m ρ c)

/-! ### At the second call's exit: its result array holds the rectified first layer -/
theorem b6_v45 : W6 m ρ c (Proc.devRef .tc main_v45) = val_main_v47 (F := Ideal) (a0 m c) (a1 m c) (a2 m c) (a3 m c) :=
  (W6_arr m ρ c 2).trans ((BiasFloor.result (V5 m ρ) c).trans
    ((congrArg₂ BiasFloor.layer (b5_v43 m ρ c) (b5_v44 m ρ c)).trans
      ((Layers.biasFloor_eq _ (a3 m c) _).trans rfl)))
theorem b6_v3 : W6 m ρ c (Proc.devRef .tc main_v3) = val_main_v3 (F := Ideal) (a1 m c) := (W6_of_ne m ρ c main_v3 (by decide)).trans (b5_v3 m ρ c)
theorem b6_v6 : W6 m ρ c (Proc.devRef .tc main_v6) = val_main_v6 (F := Ideal) (a1 m c) := (W6_of_ne m ρ c main_v6 (by decide)).trans (b5_v6 m ρ c)
theorem b6_v30 : W6 m ρ c (Proc.devRef .tc main_v30) = val_main_v30 (F := Ideal) (a1 m c) := (W6_of_ne m ρ c main_v30 (by decide)).trans (b5_v30 m ρ c)
theorem b6_arg4 : W6 m ρ c (Proc.devRef .tc main_arg4) = a4 m c := (W6_of_ne m ρ c main_arg4 (by decide)).trans (b5_arg4 m ρ c)
theorem b6_arg5 : W6 m ρ c (Proc.devRef .tc main_arg5) = a5 m c := (W6_of_ne m ρ c main_arg5 (by decide)).trans (b5_arg5 m ρ c)

/-! ### At the third call's exit: its result array holds the second product -/
theorem b7_v46 : W7 m ρ c (Proc.devRef .tc main_v46) = val_main_v48 (F := Ideal) (a0 m c) (a1 m c) (a2 m c) (a3 m c) (a4 m c) :=
  (W7_arr m ρ c 2).trans ((ProductTwo.result (V6 m ρ) c).trans
    ((congrArg₂ ProductTwo.product (b6_v45 m ρ c) (b6_arg4 m ρ c)).trans rfl))
theorem b7_v3 : W7 m ρ c (Proc.devRef .tc main_v3) = val_main_v3 (F := Ideal) (a1 m c) := (W7_of_ne m ρ c main_v3 (by decide)).trans (b6_v3 m ρ c)
theorem b7_v6 : W7 m ρ c (Proc.devRef .tc main_v6) = val_main_v6 (F := Ideal) (a1 m c) := (W7_of_ne m ρ c main_v6 (by decide)).trans (b6_v6 m ρ c)
theorem b7_v30 : W7 m ρ c (Proc.devRef .tc main_v30) = val_main_v30 (F := Ideal) (a1 m c) := (W7_of_ne m ρ c main_v30 (by decide)).trans (b6_v30 m ρ c)
theorem b7_arg5 : W7 m ρ c (Proc.devRef .tc main_arg5) = a5 m c := (W7_of_ne m ρ c main_arg5 (by decide)).trans (b6_arg5 m ρ c)

/-! ### At the last call's entry, and its exit -/
theorem b8_v58 : W8 m ρ c (Proc.devRef .tc main_v58) = val_main_v60 (F := Ideal) (a0 m c) (a1 m c) (a2 m c) (a3 m c) (a4 m c) :=
  s3_v58 (W7 m ρ c) (a1 m c) (a0 m c) (a2 m c) (a3 m c) (a4 m c) (b7_v3 m ρ c) (b7_v6 m ρ c) (b7_v30 m ρ c) (b7_v46 m ρ c)
theorem b8_v59 : W8 m ρ c (Proc.devRef .tc main_v59) = shapeCast S1x40 (a5 m c) Cert.KernelIdeal.Gen.shapeCasts_S40_S1x40 :=
  s3_v59 (W7 m ρ c) (a5 m c) (b7_arg5 m ρ c)

/-- THE KERNEL'S RESULT: after the last call the result buffer holds the reference's last stage of @main's arguments. -/
theorem result : W9 m ρ c (Proc.devRef .tc main_v60)
    = val_main_v64 (F := Ideal) (a0 m c) (a1 m c) (a2 m c) (a3 m c) (a4 m c) (a5 m c) :=
  (W9_arr m ρ c 2).trans ((LogSoftmaxRows.result (V8 m ρ) c).trans
    ((congrArg₂ LogSoftmaxRows.layer (b8_v58 m ρ c) (b8_v59 m ρ c)).trans
      (Layers.logSoftmax_eq (a0 m c) (a1 m c) (a2 m c) (a3 m c) (a4 m c) (a5 m c) _)))

end Boundaries

end Cert.KernelIdeal.Bridge

end
-- ==== Proof.lean ====
/-
  A two-layer graph convolution, kernel against reference, over the extended reals.

  Both programs take node features x (100000×500), an edge list (2×1600000, int32), weights W1 (500×128), W2 (128×40)
  and biases b1, b2. Both add a self loop to every node, count degrees by a scatter-add of ones, take
  dinv = rsqrt(deg) where deg > 0 and 0 elsewhere, and weigh edge (s, d) by dinv[s]·dinv[d]. A layer multiplies the node
  features by its weight matrix, gathers the product's rows by source, scales each by its edge's weight, scatter-adds
  them by destination and adds the bias; the first layer is followed by max(·, 0), the second by a log-softmax along each
  row. The index preparation, the gathers and the scatter-adds are the same host operations, in the same order, in both
  programs. They differ in four places, where the kernel launches a pallas call over blocks of rows and the reference
  has host operations on the whole array:

    * x · W1 and h · W2: each call multiplies a block of 5000 rows, narrowed to bf16, by the whole weight matrix into a
      zero accumulator; on the extended reals the narrowing is the identity and entry (r, q) is Σₖ a(r, k) · w(k, q),
      which is the reference's `dot_general` entry (Proof/ProductOne.lean, Proof/ProductTwo.lean);
    * bias and rectifier: entrywise max(a(r, q) + b(q), 0) on both sides, the bias a one-row recast in the kernel and a
      broadcast along axis 1 in the reference (Proof/BiasFloor.lean, Proof/Layers.lean);
    * bias and log-softmax: row by row (z − m) − log Σ exp(z − m) with m the row's maximum folded from −∞; the
      reference takes the maximum with −∞ once more, which changes nothing, and starts its sum from a zero
      (Proof/LogSoftmaxRows.lean, Proof/LibLogSoftmaxRow.lean, Proof/Layers.lean).

  No step uses more of arithmetic than 0 + s = s and max(b, m) = m for m ≥ b, so nothing depends on the inputs being
  finite and the precondition is never opened.

  The kernel's run with its result named is the launch of the generated frame called once more with the result buffer
  in its post (Proof/KernelRun.lean); Proof/Bridge.lean walks @main's boundaries and shows that buffer ends at the
  reference's last stage of the arguments. The reference's run and its stages, one operation at a time, are in Proof/RefRun.lean and
  Proof/RefRead.lean. The ideal pass rewrote nothing, so `preserves` is trivial.
-/
import proofs.«156352_j73478300500078_1_alg».proof.Defs
import proofs.«156352_j73478300500078_1_alg».proof.Proof.Gen.Kernel
import proofs.«156352_j73478300500078_1_alg».proof.Proof.Gen.Kernel.Frame
import proofs.«156352_j73478300500078_1_alg».proof.Proof.Gen.KernelIdeal
import proofs.«156352_j73478300500078_1_alg».proof.Proof.Gen.KernelIdeal.Frame
import proofs.«156352_j73478300500078_1_alg».proof.Proof.Gen.ReferenceIdeal
import proofs.«156352_j73478300500078_1_alg».proof.Proof.Gen.Pre_finite_inputs
import proofs.«156352_j73478300500078_1_alg».proof.Proof.KernelRun
import proofs.«156352_j73478300500078_1_alg».proof.Proof.RefRead
import proofs.«156352_j73478300500078_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- From memories that agree on the six arguments both programs run, and both end with the result buffer at the
    reference's last stage of the kernel's arguments. -/
theorem algebraic : Cert.algebraic_KernelIdeal_ReferenceIdeal := by
  intro m ρ m' ρ' _ hagree
  refine ⟨fun c => Cert.ReferenceIdeal.RunRead.val_main_v64 (F := Ideal) (Cert.KernelIdeal.Bridge.a0 m c)
      (Cert.KernelIdeal.Bridge.a1 m c) (Cert.KernelIdeal.Bridge.a2 m c) (Cert.KernelIdeal.Bridge.a3 m c)
      (Cert.KernelIdeal.Bridge.a4 m c) (Cert.KernelIdeal.Bridge.a5 m c), ?_, ?_⟩
  · exact (θ_run Cert.KernelIdeal.defs _ _).mono
      (fun r h c => ⟨(h c).1.trans (Cert.KernelIdeal.Bridge.result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.RunValue.run (F := Ideal) m' ρ')
    obtain ⟨h0, h1, h2, h3, h4, h5⟩ := hagree c
    rw [Cert.ReferenceIdeal.RunRead.val_main_v64_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
